-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x81920 : Shape := ⟨2, ![2048, 81920]⟩
abbrev S2048x1 : Shape := ⟨2, ![2048, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S2048x81920 : S_.BroadcastsInDim S2048x81920 (![] : Fin 0 → Fin S2048x81920.rank)
  reducesTo_S2048x81920_S_d0_1 : S2048x81920.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S4x81920 : S_.BroadcastsInDim S4x81920 (![] : Fin 0 → Fin S4x81920.rank)
  reducesTo_S4x81920_S_d0_1 : S4x81920.ReducesTo [0, 1] S_
  bcast_S_S4 : S_.BroadcastsInDim S4 (![] : Fin 0 → Fin S4.rank)
  reducesTo_S4_S_d0 : S4.ReducesTo [0] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S8x8 .f32) (main_arg8 : FVec F S8 .f32) (main_arg9 : FVec F S1x8 .f32) (main_arg10 : FVec F S1 .f32) (main_v33 : IVec S_ 1) : IVec S_ 1 :=
  let main_v34 : FVec F S8x8 .f32 := Host.absf main_arg7
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S1x8 .f32 := Host.absf main_arg9
  let main_cst_16 : FVec F S_ .f32 := constant S_ .f32 0x7F800000#32
  let main_v45 : FVec F S1x8 .f32 := broadcastInDim S1x8 ![] bcast_S_S1x8 main_cst_16
  let main_v46 : IVec S1x8 1 := cmpf .olt main_v44 main_v45
  let main_c_17 : IVec S_ 1 := constantI S_ 1 1#1
  let main_v47 : IVec S_ 1 := (fun x v => Host.reduce IntOp.andi x v reducesTo_S1x8_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S2048x1 .f32) (main_arg5 : FVec F S4x81920 .f32) (main_arg6 : FVec F S4 .f32) (main_arg7 : FVec F S8x8 .f32) (main_arg8 : FVec F S8 .f32) (main_arg9 : FVec F S1x8 .f32) (main_arg10 : FVec F S1 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  let main_v24 : FVec F S4x81920 .f32 := Host.absf main_arg5
  let main_cst_8 : FVec F S_ .f32 := constant S_ .f32 0x7F800000#32
  let main_v25 : FVec F S4x81920 .f32 := broadcastInDim S4x81920 ![] bcast_S_S4x81920 main_cst_8
  let main_v26 : IVec S4x81920 1 := cmpf .olt main_v24 main_v25
  let main_c_9 : IVec S_ 1 := constantI S_ 1 1#1
  let main_v27 : IVec S_ 1 := (fun x v => Host.reduce IntOp.andi x v reducesTo_S4x81920_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x81920 .f32) (main_arg1 : FVec F S2048x81920 .f32) (main_arg2 : FVec F S2048x1 .f32) (main_arg3 : FVec F S2048x1 .f32) (main_arg4 : FVec F S2048x1 .f32) (main_arg5 : FVec F S4x81920 .f32) (main_arg6 : FVec F S4 .f32) (main_arg7 : FVec F S8x8 .f32) (main_arg8 : FVec F S8 .f32) (main_arg9 : FVec F S1x8 .f32) (main_arg10 : FVec F S1 .f32) : IVec S_ 1 :=
  let main_v0 : FVec F S2048x81920 .f32 := Host.absf main_arg0
  let main_cst : FVec F S_ .f32 := constant S_ .f32 0x7F800000#32
  let main_v1 : FVec F S2048x81920 .f32 := broadcastInDim S2048x81920 ![] bcast_S_S2048x81920 main_cst
  let main_v2 : IVec S2048x81920 1 := cmpf .olt main_v0 main_v1
  let main_c : IVec S_ 1 := constantI S_ 1 1#1
  let main_v3 : IVec S_ 1 := (fun x v => Host.reduce IntOp.andi x v reducesTo_S2048x81920_S_d0_1 h_S_) main_v2 main_c
  let main_v4 : FVec F S2048x81920 .f32 := Host.absf main_arg1
  let main_cst_0 : FVec F S_ .f32 := constant S_ .f32 0x7F800000#32
  let main_v5 : FVec F S2048x81920 .f32 := broadcastInDim S2048x81920 ![] bcast_S_S2048x81920 main_cst_0
  let main_v6 : IVec S2048x81920 1 := cmpf .olt main_v4 main_v5
  let main_c_1 : IVec S_ 1 := constantI S_ 1 1#1
  let main_v7 : IVec S_ 1 := (fun x v => Host.reduce IntOp.andi x v reducesTo_S2048x81920_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg4 main_arg5 main_arg6 main_arg7 main_arg8 main_arg9 main_arg10 main_v13 main_v16
-- ==== Kernel.lean ====
abbrev S2048x81920 : Shape := ⟨2, ![2048, 81920]⟩
abbrev S2048x1 : Shape := ⟨2, ![2048, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S81920x4 : Shape := ⟨2, ![81920, 4]⟩
abbrev S8x4 : Shape := ⟨2, ![8, 4]⟩
abbrev S256x4096 : Shape := ⟨2, ![256, 4096]⟩
abbrev S4096x4 : Shape := ⟨2, ![4096, 4]⟩
abbrev S256x1 : Shape := ⟨2, ![256, 1]⟩
abbrev S256x4 : Shape := ⟨2, ![256, 4]⟩
abbrev S1x4 : Shape := ⟨2, ![1, 4]⟩
abbrev S4x8 : Shape := ⟨2, ![4, 8]⟩
abbrev S256x8 : Shape := ⟨2, ![256, 8]⟩
abbrev S8x1 : Shape := ⟨2, ![8, 1]⟩
abbrev S1x1 : Shape := ⟨2, ![1, 1]⟩

abbrev nBuf : Space → Nat
  | .hbm => 15
  | .vmem => 22
  | .smem => 0
  | _ => 0

abbrev bufTy : (tb : Table) → Fin (tcTables nBuf tb) → BufTy
  | .hbm, ⟨0, _⟩ => ⟨S2048x81920, .f32⟩
  | .hbm, ⟨1, _⟩ => ⟨S2048x81920, .f32⟩
  | .hbm, ⟨2, _⟩ => ⟨S2048x1, .f32⟩
  | .hbm, ⟨3, _⟩ => ⟨S2048x1, .f32⟩
  | .hbm, ⟨4, _⟩ => ⟨S2048x1, .f32⟩
  | .hbm, ⟨5, _⟩ => ⟨S4x81920, .f32⟩
  | .hbm, ⟨6, _⟩ => ⟨S4, .f32⟩
  | .hbm, ⟨7, _⟩ => ⟨S8x8, .f32⟩
  | .hbm, ⟨8, _⟩ => ⟨S8, .f32⟩
  | .hbm, ⟨9, _⟩ => ⟨S1x8, .f32⟩
  | .hbm, ⟨10, _⟩ => ⟨S1, .f32⟩
  | .hbm, ⟨11, _⟩ => ⟨S81920x4, .f32⟩
  | .hbm, ⟨12, _⟩ => ⟨S8x4, .f32⟩
  | .hbm, ⟨13, _⟩ => ⟨S8x4, .f32⟩
  | .hbm, ⟨14, _⟩ => ⟨S2048x1, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x4, .f32⟩
  | .local _ .vmem, ⟨5, _⟩ => ⟨S4096x4, .f32⟩
  | .local _ .vmem, ⟨6, _⟩ => ⟨S4, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S8x4, .f32⟩
  | .local _ .vmem, ⟨14, _⟩ => ⟨S8x4, .f32⟩
  | .local _ .vmem, ⟨15, _⟩ => ⟨S8, .f32⟩
  | .local _ .vmem, ⟨16, _⟩ => ⟨S1x8, .f32⟩
  | .local _ .vmem, ⟨17, _⟩ => ⟨S1, .f32⟩
  | .local _ .vmem, ⟨18, _⟩ => ⟨S256x1, .f32⟩
  | .local _ .vmem, ⟨19, _⟩ => ⟨S256x1, .f32⟩
  | .local _ .vmem, ⟨20, _⟩ => ⟨S256x4, .f32⟩
  | .local _ .vmem, ⟨21, _⟩ => ⟨S256x4, .f32⟩
  | _, _ => ⟨S2048x81920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 20], ![false, false]⟩

def k0_cond2 (i : grid0.Coords) : BitVec 1 :=
  let arg1 : BitVec 32 := BitVec.ofNat 32 (i 1).val
  let c19_i32 : BitVec 32 := 19#32
  let v22 : BitVec 1 := Scalar.cmpi .eq arg1 c19_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  transposes_S4x81920_S81920x4_1_0 : S4x81920.Transposes [1, 0] S81920x4
  slices_S8x8_S8x4_0_0 : S8x8.Slices ![0, 0] S8x4
  slices_S8x8_S8x4_0_4 : S8x8.Slices ![0, 4] S8x4
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  inb_S4_S4_0 : ∀ a, (![0] : Fin 1 → Nat) a + S4.size a ≤ S4.size a
  h_S4 : 0 < S4.numel
  shapeCasts_S4_S1x4 : S4.ShapeCasts S1x4
  broadcasts_S1x4_S256x4 : S1x4.Broadcasts S256x4
  inb_S256x1_S256x1_0_0 : ∀ a, (![0, 0] : Fin 2 → Nat) a + S256x1.size a ≤ S256x1.size a
  h_S256x1 : 0 < S256x1.numel
  broadcasts_S256x1_S256x4 : S256x1.Broadcasts S256x4
  inb_S8x4_S8x4_0_0 : ∀ a, (![0, 0] : Fin 2 → Nat) a + S8x4.size a ≤ S8x4.size a
  h_S8x4 : 0 < S8x4.numel
  shapeCasts_S8x4_S8x4 : S8x4.ShapeCasts S8x4
  inb_S8_S8_0 : ∀ a, (![0] : Fin 1 → Nat) a + S8.size a ≤ S8.size a
  h_S8 : 0 < S8.numel
  transposes_S8x4_p1_0_S4x8 : S8x4.Transposes [1, 0] S4x8
  shapeCasts_S8_S1x8 : S8.ShapeCasts S1x8
  broadcasts_S1x8_S256x8 : S1x8.Broadcasts S256x8
  inb_S1x8_S1x8_0_0 : ∀ a, (![0, 0] : Fin 2 → Nat) a + S1x8.size a ≤ S1x8.size a
  h_S1x8 : 0 < S1x8.numel
  inb_S1_S1_0 : ∀ a, (![0] : Fin 1 → Nat) a + S1.size a ≤ S1.size a
  h_S1 : 0 < S1.numel
  transposes_S1x8_p1_0_S8x1 : S1x8.Transposes [1, 0] S8x1
  shapeCasts_S1_S1x1 : S1.ShapeCasts S1x1
  broadcasts_S1x1_S256x1 : S1x1.Broadcasts S256x1
  dot_S256x4096_S4096x4_S256x4_1_0_0_1_n_n_wf : DotDims.WF S256x4096 S4096x4 S256x4 [1] [0] [0] [1] [] []
  dot_S256x4_S4x8_S256x8_1_0_0_1_n_n_wf : DotDims.WF S256x4 S4x8 S256x8 [1] [0] [0] [1] [] []
  dot_S256x8_S8x1_S256x1_1_0_0_1_n_n_wf : DotDims.WF S256x8 S8x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x81920.size a
  hwx0_0 : ∀ i : grid0.Coords, EltTy.bits .f32 = 32 ∨ (Rect.block (s := S2048x81920) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x81920.size a
  hwx0_1 : ∀ i : grid0.Coords, EltTy.bits .f32 = 32 ∨ (Rect.block (s := S2048x81920) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S81920x4.size a
  hwx0_2 : ∀ i : grid0.Coords, EltTy.bits .f32 = 32 ∨ (Rect.block (s := S81920x4) S4096x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4.size a ≤ S4.size a
  hwx0_3 : ∀ i : grid0.Coords, EltTy.bits .f32 = 32 ∨ (Rect.block (s := S4) S4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S2048x1.size a
  hwx0_5 : ∀ i : grid0.Coords, EltTy.bits .f32 = 32 ∨ (Rect.block (s := S2048x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S2048x1.size a
  hwx0_6 : ∀ i : grid0.Coords, EltTy.bits .f32 = 32 ∨ (Rect.block (s := S2048x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x4.size a ≤ S8x4.size a
  hwx0_7 : ∀ i : grid0.Coords, EltTy.bits .f32 = 32 ∨ (Rect.block (s := S8x4) S8x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x4.size a ≤ S8x4.size a
  hwx0_8 : ∀ i : grid0.Coords, EltTy.bits .f32 = 32 ∨ (Rect.block (s := S8x4) S8x4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8.size a ≤ S8.size a
  hwx0_9 : ∀ i : grid0.Coords, EltTy.bits .f32 = 32 ∨ (Rect.block (s := S8) S8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x8.size a ≤ S1x8.size a
  hwx0_10 : ∀ i : grid0.Coords, EltTy.bits .f32 = 32 ∨ (Rect.block (s := S1x8) S1x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S2048x1.size a
  hwx0_12 : ∀ i : grid0.Coords, EltTy.bits .f32 = 32 ∨ (Rect.block (s := S2048x1) S256x1.size (cc0_transform_12 i) (hinb0_12 i)).WholeWords (EltTy.packing .f32)

variable [Facts₀]

def dot_S256x4096_S4096x4_S256x4_1_0_0_1_n_n : DotDims S256x4096 S4096x4 S256x4 where
  lhsContracting := [1]
  rhsContracting := [0]
  lhsNonContracting := [0]
  rhsNonContracting := [1]
  lhsBatch := []
  rhsBatch := []
  wf := dot_S256x4096_S4096x4_S256x4_1_0_0_1_n_n_wf
def dot_S256x4_S4x8_S256x8_1_0_0_1_n_n : DotDims S256x4 S4x8 S256x8 where
  lhsContracting := [1]
  rhsContracting := [0]
  lhsNonContracting := [0]
  rhsNonContracting := [1]
  lhsBatch := []
  rhsBatch := []
  wf := dot_S256x4_S4x8_S256x8_1_0_0_1_n_n_wf
def dot_S256x8_S8x1_S256x1_1_0_0_1_n_n : DotDims S256x8 S8x1 S256x1 where
  lhsContracting := [1]
  rhsContracting := [0]
  lhsNonContracting := [0]
  rhsNonContracting := [1]
  lhsBatch := []
  rhsBatch := []
  wf := dot_S256x8_S8x1_S256x1_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S8x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S8x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S256x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S2048x81920 : Shape := ⟨2, ![2048, 81920]⟩
abbrev S2048x1 : Shape := ⟨2, ![2048, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S81920x4 : Shape := ⟨2, ![81920, 4]⟩
abbrev S2048x4 : Shape := ⟨2, ![2048, 4]⟩
abbrev S1x4 : Shape := ⟨2, ![1, 4]⟩
abbrev S2048x8 : Shape := ⟨2, ![2048, 8]⟩
abbrev S_ : Shape := ⟨0, ![]⟩
abbrev S8x1 : Shape := ⟨2, ![8, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S2048x81920, .f32⟩
  | .hbm, ⟨1, _⟩ => ⟨S2048x81920, .f32⟩
  | .hbm, ⟨2, _⟩ => ⟨S2048x1, .f32⟩
  | .hbm, ⟨3, _⟩ => ⟨S2048x1, .f32⟩
  | .hbm, ⟨4, _⟩ => ⟨S2048x1, .f32⟩
  | .hbm, ⟨5, _⟩ => ⟨S4x81920, .f32⟩
  | .hbm, ⟨6, _⟩ => ⟨S4, .f32⟩
  | .hbm, ⟨7, _⟩ => ⟨S8x8, .f32⟩
  | .hbm, ⟨8, _⟩ => ⟨S8, .f32⟩
  | .hbm, ⟨9, _⟩ => ⟨S1x8, .f32⟩
  | .hbm, ⟨10, _⟩ => ⟨S1, .f32⟩
  | .hbm, ⟨11, _⟩ => ⟨S81920x4, .f32⟩
  | .hbm, ⟨12, _⟩ => ⟨S2048x4, .f32⟩
  | .hbm, ⟨13, _⟩ => ⟨S1x4, .f32⟩
  | .hbm, ⟨14, _⟩ => ⟨S2048x4, .f32⟩
  | .hbm, ⟨15, _⟩ => ⟨S2048x4, .f32⟩
  | .hbm, ⟨16, _⟩ => ⟨S81920x4, .f32⟩
  | .hbm, ⟨17, _⟩ => ⟨S2048x4, .f32⟩
  | .hbm, ⟨18, _⟩ => ⟨S1x4, .f32⟩
  | .hbm, ⟨19, _⟩ => ⟨S2048x4, .f32⟩
  | .hbm, ⟨20, _⟩ => ⟨S2048x4, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048x8, .f32⟩
  | .hbm, ⟨35, _⟩ => ⟨S2048x8, .f32⟩
  | .hbm, ⟨36, _⟩ => ⟨S_, .f32⟩
  | .hbm, ⟨37, _⟩ => ⟨S2048x8, .f32⟩
  | .hbm, ⟨38, _⟩ => ⟨S2048x8, .f32⟩
  | .hbm, ⟨39, _⟩ => ⟨S8x8, .f32⟩
  | .hbm, ⟨40, _⟩ => ⟨S2048x8, .f32⟩
  | .hbm, ⟨41, _⟩ => ⟨S1x8, .f32⟩
  | .hbm, ⟨42, _⟩ => ⟨S2048x8, .f32⟩
  | .hbm, ⟨43, _⟩ => ⟨S2048x8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048x8, .f32⟩
  | .hbm, ⟨48, _⟩ => ⟨S2048x8, .f32⟩
  | .hbm, ⟨49, _⟩ => ⟨S_, .f32⟩
  | .hbm, ⟨50, _⟩ => ⟨S2048x8, .f32⟩
  | .hbm, ⟨51, _⟩ => ⟨S2048x8, .f32⟩
  | .hbm, ⟨52, _⟩ => ⟨S8x1, .f32⟩
  | .hbm, ⟨53, _⟩ => ⟨S2048x1, .f32⟩
  | .hbm, ⟨54, _⟩ => ⟨S1x1, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S2048x1, .f32⟩
  | .hbm, ⟨80, _⟩ => ⟨S2048x1, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S2048x1, .f32⟩
  | _, _ => ⟨S2048x81920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  transposes_S4x81920_S81920x4_1_0 : S4x81920.Transposes [1, 0] S81920x4
  bcast_S4_S1x4_1 : S4.BroadcastsInDim S1x4 (![1] : Fin 1 → Fin S1x4.rank)
  bcast_S1x4_S2048x4_0_1 : S1x4.BroadcastsInDim S2048x4 (![0, 1] : Fin 2 → Fin S2048x4.rank)
  concatenates_S2048x4_S2048x4_S2048x8_d1 : Shape.Concatenates [S2048x4, S2048x4] S2048x8 1
  bcast_S2048x1_S2048x8_0_1 : S2048x1.BroadcastsInDim S2048x8 (![0, 1] : Fin 2 → Fin S2048x8.rank)
  bcast_S_S2048x1 : S_.BroadcastsInDim S2048x1 (![] : Fin 0 → Fin S2048x1.rank)
  bcast_S_S2048x8 : S_.BroadcastsInDim S2048x8 (![] : Fin 0 → Fin S2048x8.rank)
  transposes_S8x8_S8x8_1_0 : S8x8.Transposes [1, 0] S8x8
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  transposes_S1x8_S8x1_1_0 : S1x8.Transposes [1, 0] S8x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S2048x81920_S81920x4_S2048x4_1_0_0_1_n_n_wf : DotDims.WF S2048x81920 S81920x4 S2048x4 [1] [0] [0] [1] [] []
  dot_S2048x8_S8x8_S2048x8_1_0_0_1_n_n_wf : DotDims.WF S2048x8 S8x8 S2048x8 [1] [0] [0] [1] [] []
  dot_S2048x8_S8x1_S2048x1_1_0_0_1_n_n_wf : DotDims.WF S2048x8 S8x1 S2048x1 [1] [0] [0] [1] [] []

variable [Facts₀]

def dot_S2048x81920_S81920x4_S2048x4_1_0_0_1_n_n : DotDims S2048x81920 S81920x4 S2048x4 where
  lhsContracting := [1]
  rhsContracting := [0]
  lhsNonContracting := [0]
  rhsNonContracting := [1]
  lhsBatch := []
  rhsBatch := []
  wf := dot_S2048x81920_S81920x4_S2048x4_1_0_0_1_n_n_wf
def dot_S2048x8_S8x8_S2048x8_1_0_0_1_n_n : DotDims S2048x8 S8x8 S2048x8 where
  lhsContracting := [1]
  rhsContracting := [0]
  lhsNonContracting := [0]
  rhsNonContracting := [1]
  lhsBatch := []
  rhsBatch := []
  wf := dot_S2048x8_S8x8_S2048x8_1_0_0_1_n_n_wf
def dot_S2048x8_S8x1_S2048x1_1_0_0_1_n_n : DotDims S2048x8 S8x1 S2048x1 where
  lhsContracting := [1]
  rhsContracting := [0]
  lhsNonContracting := [0]
  rhsNonContracting := [1]
  lhsBatch := []
  rhsBatch := []
  wf := dot_S2048x8_S8x1_S2048x1_1_0_0_1_n_n_wf

class Facts : Prop extends Facts₀ where

variable [Facts]
-- ==== Proof.KernelOps.lean ====
/-
  The kernel body's operations read at one entry, at the ideal instance.

  Its three matrix products — a block of 256 feature rows by 4096 features against 4096 by 4 weights, the
  first dense layer's 256 by 4 against 4 by 8, the second's 256 by 8 against 8 by 1 — onto a zero
  accumulator are plain sums over the contracted axis: entry `(p, c)` is `∑ k, l (p, k) · r (k, c)`. The
  layout operations around them read one entry of their operand: a vector laid along the rows of a block
  reads its entry at the column, a column laid across a block's columns reads its entry at the row, a
  transposed matrix reads the mirrored entry.
-/
import proofs.«108676_j31525059952895_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

open Idealize.ShloMosaic Idealize.ShloMosaic.ValueIdx

namespace Cert.KernelIdeal.Ops

open Cert.KernelIdeal Cert.KernelIdeal.Gen

/-! ## The three products' operand indices, axis by axis -/

theorem feat_lhs0 (i : S256x4.Idx) (q : dot_S256x4096_S4096x4_S256x4_1_0_0_1_n_n.contr.Idx) : (dot_S256x4096_S4096x4_S256x4_1_0_0_1_n_n.lhsIdx i q 0).val = (i 0).val := by
  unfold DotDims.lhsIdx
  rw [dif_neg (show ¬(0 : Fin S256x4096.rank) ∈ dot_S256x4096_S4096x4_S256x4_1_0_0_1_n_n.lhsBatch by decide), dif_pos (show (0 : Fin S256x4096.rank) ∈ dot_S256x4096_S4096x4_S256x4_1_0_0_1_n_n.lhsNonContracting by decide)]
  rfl
theorem feat_lhs1 (i : S256x4.Idx) (q : dot_S256x4096_S4096x4_S256x4_1_0_0_1_n_n.contr.Idx) : (dot_S256x4096_S4096x4_S256x4_1_0_0_1_n_n.lhsIdx i q 1).val = (q ⟨0, by decide⟩).val :=
  dot_S256x4096_S4096x4_S256x4_1_0_0_1_n_n.lhsIdx_val_of_single rfl i q
theorem feat_rhs0 (i : S256x4.Idx) (q : dot_S256x4096_S4096x4_S256x4_1_0_0_1_n_n.contr.Idx) : (dot_S256x4096_S4096x4_S256x4_1_0_0_1_n_n.rhsIdx i q 0).val = (q ⟨0, by decide⟩).val :=
  dot_S256x4096_S4096x4_S256x4_1_0_0_1_n_n.rhsIdx_val_of_single rfl i q
theorem feat_rhs1 (i : S256x4.Idx) (q : dot_S256x4096_S4096x4_S256x4_1_0_0_1_n_n.contr.Idx) : (dot_S256x4096_S4096x4_S256x4_1_0_0_1_n_n.rhsIdx i q 1).val = (i 1).val := by
  unfold DotDims.rhsIdx
  rw [dif_neg (show ¬(1 : Fin S4096x4.rank) ∈ dot_S256x4096_S4096x4_S256x4_1_0_0_1_n_n.rhsBatch by decide), dif_pos (show (1 : Fin S4096x4.rank) ∈ dot_S256x4096_S4096x4_S256x4_1_0_0_1_n_n.rhsNonContracting by decide)]
  rfl

theorem dense1_lhs0 (i : S256x8.Idx) (q : dot_S256x4_S4x8_S256x8_1_0_0_1_n_n.contr.Idx) : (dot_S256x4_S4x8_S256x8_1_0_0_1_n_n.lhsIdx i q 0).val = (i 0).val := by
  unfold DotDims.lhsIdx
  rw [dif_neg (show ¬(0 : Fin S256x4.rank) ∈ dot_S256x4_S4x8_S256x8_1_0_0_1_n_n.lhsBatch by decide), dif_pos (show (0 : Fin S256x4.rank) ∈ dot_S256x4_S4x8_S256x8_1_0_0_1_n_n.lhsNonContracting by decide)]
  rfl
theorem dense1_lhs1 (i : S256x8.Idx) (q : dot_S256x4_S4x8_S256x8_1_0_0_1_n_n.contr.Idx) : (dot_S256x4_S4x8_S256x8_1_0_0_1_n_n.lhsIdx i q 1).val = (q ⟨0, by decide⟩).val :=
  dot_S256x4_S4x8_S256x8_1_0_0_1_n_n.lhsIdx_val_of_single rfl i q
theorem dense1_rhs0 (i : S256x8.Idx) (q : dot_S256x4_S4x8_S256x8_1_0_0_1_n_n.contr.Idx) : (dot_S256x4_S4x8_S256x8_1_0_0_1_n_n.rhsIdx i q 0).val = (q ⟨0, by decide⟩).val :=
  dot_S256x4_S4x8_S256x8_1_0_0_1_n_n.rhsIdx_val_of_single rfl i q
theorem dense1_rhs1 (i : S256x8.Idx) (q : dot_S256x4_S4x8_S256x8_1_0_0_1_n_n.contr.Idx) : (dot_S256x4_S4x8_S256x8_1_0_0_1_n_n.rhsIdx i q 1).val = (i 1).val := by
  unfold DotDims.rhsIdx
  rw [dif_neg (show ¬(1 : Fin S4x8.rank) ∈ dot_S256x4_S4x8_S256x8_1_0_0_1_n_n.rhsBatch by decide), dif_pos (show (1 : Fin S4x8.rank) ∈ dot_S256x4_S4x8_S256x8_1_0_0_1_n_n.rhsNonContracting by decide)]
  rfl

theorem dense2_lhs0 (i : S256x1.Idx) (q : dot_S256x8_S8x1_S256x1_1_0_0_1_n_n.contr.Idx) : (dot_S256x8_S8x1_S256x1_1_0_0_1_n_n.lhsIdx i q 0).val = (i 0).val := by
  unfold DotDims.lhsIdx
  rw [dif_neg (show ¬(0 : Fin S256x8.rank) ∈ dot_S256x8_S8x1_S256x1_1_0_0_1_n_n.lhsBatch by decide), dif_pos (show (0 : Fin S256x8.rank) ∈ dot_S256x8_S8x1_S256x1_1_0_0_1_n_n.lhsNonContracting by decide)]
  rfl
theorem dense2_lhs1 (i : S256x1.Idx) (q : dot_S256x8_S8x1_S256x1_1_0_0_1_n_n.contr.Idx) : (dot_S256x8_S8x1_S256x1_1_0_0_1_n_n.lhsIdx i q 1).val = (q ⟨0, by decide⟩).val :=
  dot_S256x8_S8x1_S256x1_1_0_0_1_n_n.lhsIdx_val_of_single rfl i q
theorem dense2_rhs0 (i : S256x1.Idx) (q : dot_S256x8_S8x1_S256x1_1_0_0_1_n_n.contr.Idx) : (dot_S256x8_S8x1_S256x1_1_0_0_1_n_n.rhsIdx i q 0).val = (q ⟨0, by decide⟩).val :=
  dot_S256x8_S8x1_S256x1_1_0_0_1_n_n.rhsIdx_val_of_single rfl i q
theorem dense2_rhs1 (i : S256x1.Idx) (q : dot_S256x8_S8x1_S256x1_1_0_0_1_n_n.contr.Idx) : (dot_S256x8_S8x1_S256x1_1_0_0_1_n_n.rhsIdx i q 1).val = (i 1).val := by
  unfold DotDims.rhsIdx
  rw [dif_neg (show ¬(1 : Fin S8x1.rank) ∈ dot_S256x8_S8x1_S256x1_1_0_0_1_n_n.rhsBatch by decide), dif_pos (show (1 : Fin S8x1.rank) ∈ dot_S256x8_S8x1_S256x1_1_0_0_1_n_n.rhsNonContracting by decide)]
  rfl

/-! ## The three products as sums -/

/-- A block of feature rows against a block of transformer weights: entry `(p, c)` sums over the block's 4096 features. -/
theorem feat_apply {φ₁ φ₂ : FTy} (prec : Option ContractPrecision) (l : FVec Ideal S256x4096 φ₁) (r : FVec Ideal S4096x4 φ₂)
    (p : Fin 256) (c : Fin 4) :
    matmul dot_S256x4096_S4096x4_S256x4_1_0_0_1_n_n prec l r (constant S256x4 .f32 0x00000000#32) (ix2 p c) = ∑ k : Fin 4096, l (ix2 p k) * r (ix2 k c) := by
  show FloatOps.matmul dot_S256x4096_S4096x4_S256x4_1_0_0_1_n_n prec l r (constant S256x4 .f32 0x00000000#32) (ix2 p c) = _
  rw [Ideal.matmul_constant_zero_apply, ← Equiv.sum_comp (contrEquiv1 dot_S256x4096_S4096x4_S256x4_1_0_0_1_n_n 4096 rfl rfl).symm]
  refine Finset.sum_congr rfl fun k _ => ?_
  have hk := contrEquiv1_symm_val dot_S256x4096_S4096x4_S256x4_1_0_0_1_n_n 4096 rfl rfl k
  have el : dot_S256x4096_S4096x4_S256x4_1_0_0_1_n_n.lhsIdx (ix2 p c) ((contrEquiv1 dot_S256x4096_S4096x4_S256x4_1_0_0_1_n_n 4096 rfl rfl).symm k) = ix2 p k := funext fun a => Fin.ext (by
    match a with
    | ⟨0, _⟩ => exact feat_lhs0 _ _
    | ⟨1, _⟩ => exact (feat_lhs1 _ _).trans hk)
  have er : dot_S256x4096_S4096x4_S256x4_1_0_0_1_n_n.rhsIdx (ix2 p c) ((contrEquiv1 dot_S256x4096_S4096x4_S256x4_1_0_0_1_n_n 4096 rfl rfl).symm k) = ix2 k c := funext fun a => Fin.ext (by
    match a with
    | ⟨0, _⟩ => exact (feat_rhs0 _ _).trans hk
    | ⟨1, _⟩ => exact feat_rhs1 _ _)
  rw [el, er]

/-- One clipped half against its half of the first dense layer: entry `(p, c)` sums over the half's four inputs. -/
theorem dense1_apply {φ₁ φ₂ : FTy} (prec : Option ContractPrecision) (l : FVec Ideal S256x4 φ₁) (r : FVec Ideal S4x8 φ₂)
    (p : Fin 256) (c : Fin 8) :
    matmul dot_S256x4_S4x8_S256x8_1_0_0_1_n_n prec l r (constant S256x8 .f32 0x00000000#32) (ix2 p c) = ∑ k : Fin 4, l (ix2 p k) * r (ix2 k c) := by
  show FloatOps.matmul dot_S256x4_S4x8_S256x8_1_0_0_1_n_n prec l r (constant S256x8 .f32 0x00000000#32) (ix2 p c) = _
  rw [Ideal.matmul_constant_zero_apply, ← Equiv.sum_comp (contrEquiv1 dot_S256x4_S4x8_S256x8_1_0_0_1_n_n 4 rfl rfl).symm]
  refine Finset.sum_congr rfl fun k _ => ?_
  have hk := contrEquiv1_symm_val dot_S256x4_S4x8_S256x8_1_0_0_1_n_n 4 rfl rfl k
  have el : dot_S256x4_S4x8_S256x8_1_0_0_1_n_n.lhsIdx (ix2 p c) ((contrEquiv1 dot_S256x4_S4x8_S256x8_1_0_0_1_n_n 4 rfl rfl).symm k) = ix2 p k := funext fun a => Fin.ext (by
    match a with
    | ⟨0, _⟩ => exact dense1_lhs0 _ _
    | ⟨1, _⟩ => exact (dense1_lhs1 _ _).trans hk)
  have er : dot_S256x4_S4x8_S256x8_1_0_0_1_n_n.rhsIdx (ix2 p c) ((contrEquiv1 dot_S256x4_S4x8_S256x8_1_0_0_1_n_n 4 rfl rfl).symm k) = ix2 k c := funext fun a => Fin.ext (by
    match a with
    | ⟨0, _⟩ => exact (dense1_rhs0 _ _).trans hk
    | ⟨1, _⟩ => exact dense1_rhs1 _ _)
  rw [el, er]

/-- The second dense layer: entry `(p, c)` sums over its eight inputs. -/
theorem dense2_apply {φ₁ φ₂ : FTy} (prec : Option ContractPrecision) (l : FVec Ideal S256x8 φ₁) (r : FVec Ideal S8x1 φ₂)
    (p : Fin 256) (c : Fin 1) :
    matmul dot_S256x8_S8x1_S256x1_1_0_0_1_n_n prec l r (constant S256x1 .f32 0x00000000#32) (ix2 p c) = ∑ k : Fin 8, l (ix2 p k) * r (ix2 k c) := by
  show FloatOps.matmul dot_S256x8_S8x1_S256x1_1_0_0_1_n_n prec l r (constant S256x1 .f32 0x00000000#32) (ix2 p c) = _
  rw [Ideal.matmul_constant_zero_apply, ← Equiv.sum_comp (contrEquiv1 dot_S256x8_S8x1_S256x1_1_0_0_1_n_n 8 rfl rfl).symm]
  refine Finset.sum_congr rfl fun k _ => ?_
  have hk := contrEquiv1_symm_val dot_S256x8_S8x1_S256x1_1_0_0_1_n_n 8 rfl rfl k
  have el : dot_S256x8_S8x1_S256x1_1_0_0_1_n_n.lhsIdx (ix2 p c) ((contrEquiv1 dot_S256x8_S8x1_S256x1_1_0_0_1_n_n 8 rfl rfl).symm k) = ix2 p k := funext fun a => Fin.ext (by
    match a with
    | ⟨0, _⟩ => exact dense2_lhs0 _ _
    | ⟨1, _⟩ => exact (dense2_lhs1 _ _).trans hk)
  have er : dot_S256x8_S8x1_S256x1_1_0_0_1_n_n.rhsIdx (ix2 p c) ((contrEquiv1 dot_S256x8_S8x1_S256x1_1_0_0_1_n_n 8 rfl rfl).symm k) = ix2 k c := funext fun a => Fin.ext (by
    match a with
    | ⟨0, _⟩ => exact (dense2_rhs0 _ _).trans hk
    | ⟨1, _⟩ => exact dense2_rhs1 _ _)
  rw [el, er]

/-! ## Layout operations at an entry -/

section Layout
variable {α : Type}

/-- A four-vector laid along every row of a 256 by 4 block. -/
theorem rows4_apply (v : S4.Idx → α) (p : Fin 256) (j : Fin 4) :
    broadcastTo S256x4 (shapeCast S1x4 v shapeCasts_S4_S1x4) broadcasts_S1x4_S256x4 (ix2 p j) = v (ix1 j) := by
  rw [broadcastTo_1b_ab_apply, shapeCast_a_1a_apply]

/-- An eight-vector laid along every row of a 256 by 8 block. -/
theorem rows8_apply (v : S8.Idx → α) (p : Fin 256) (n : Fin 8) :
    broadcastTo S256x8 (shapeCast S1x8 v shapeCasts_S8_S1x8) broadcasts_S1x8_S256x8 (ix2 p n) = v (ix1 n) := by
  rw [broadcastTo_1b_ab_apply, shapeCast_a_1a_apply]

/-- A one-vector laid down a 256 by 1 column. -/
theorem rows1_apply (v : S1.Idx → α) (p : Fin 256) (z : Fin 1) :
    broadcastTo S256x1 (shapeCast S1x1 v shapeCasts_S1_S1x1) broadcasts_S1x1_S256x1 (ix2 p z) = v (ix1 z) := by
  rw [broadcastTo_1b_ab_apply, shapeCast_a_1a_apply]

/-- A 256 by 1 column laid across the four columns of a block: entry `(p, j)` is the column's entry `p`. -/
theorem cols4_apply (v : S256x1.Idx → α) (p : Fin 256) (j : Fin 4) :
    broadcastTo S256x4 v broadcasts_S256x1_S256x4 (ix2 p j) = v (ix2 p (0 : Fin 1)) :=
  broadcastTo_apply v broadcasts_S256x1_S256x4 (ix2 p j) (ix2 p (0 : Fin 1)) fun a => match a with
    | ⟨0, _⟩ => by show p.val = if (256 : Nat) = 1 then 0 else p.val; rw [if_neg (by decide)]
    | ⟨1, _⟩ => by show 0 = if (1 : Nat) = 1 then 0 else j.val; rw [if_pos rfl]

/-- An 8 by 4 matrix transposed. -/
theorem tr84_apply (v : S8x4.Idx → α) (j : Fin 4) (n : Fin 8) :
    transpose S4x8 [1, 0] v transposes_S8x4_p1_0_S4x8 (ix2 j n) = v (ix2 n j) :=
  transpose_ix2_apply v transposes_S8x4_p1_0_S4x8 j n

/-- A 1 by 8 row transposed to a column. -/
theorem tr18_apply (v : S1x8.Idx → α) (n : Fin 8) (z : Fin 1) :
    transpose S8x1 [1, 0] v transposes_S1x8_p1_0_S8x1 (ix2 n z) = v (ix2 z n) :=
  transpose_ix2_apply v transposes_S1x8_p1_0_S8x1 n z

end Layout

end Cert.KernelIdeal.Ops

end
-- ==== Proof.Pieces.lean ====
/-
  What each control case of the kernel body leaves behind, as values.

  The body runs in one of three cases, by the position `k` of the point along the feature axis. At `k = 0` it
  stores zero into the two accumulators and then adds this point's block products to what it reads back; at
  `0 < k < 19` it adds the block products to what the point before left; at `k = 19` it does the same and
  then, from the accumulators it has just stored, computes the loss of the block's 256 positions and stores
  it into the output block. Each lemma below reads one stored buffer back: the covering store's value, with
  every load of a staged block replaced by the block and every load of a buffer the same run has already
  stored replaced by the stored value.
-/
import proofs.«108676_j31525059952895_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem off2 : (![0, 0] : Fin 2 → Nat) = fun _ => 0 := funext fun a => by fin_cases a <;> rfl
theorem off1 : (![0] : Fin 1 → Nat) = fun _ => 0 := funext fun a => by fin_cases a <;> rfl

/-- The loss block of 256 positions from the two accumulators `a0`, `a1` as the last point stores them and
    the small operands' blocks: the payload of the output's one store. -/
def lossBlock (x3 : Vec F S4 .f32) (a0 a1 : Vec F S256x4 .f32) (x4 x5 x6 : Vec F S256x1 .f32)
    (x7 x8 : Vec F S8x4 .f32) (x9 : Vec F S8 .f32) (x10 : Vec F S1x8 .f32) (x11 : Vec F S1 .f32) : Vec F S256x1 .f32 :=
  k0_pay6 (k0_pay9 x3 a0 a1 x4) x9 (k0_pay10 x3 a0 a1 x4 x7) (k0_pay11 x8) (constant S256x8 .f32 0x00000000#32) x10 x11 x5 x6

/-- First point of a row block: the white accumulator is zero plus this block's products. -/
theorem white_first (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S8 .f32) (harg11 : arg11.IsWhole) (arg12 : Memref sig .tc .vmem S1x8 .f32) (harg12 : arg12.IsWhole) (arg13 : Memref sig .tc .vmem S1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : cond0_0 i) (hc1 : ¬cond0_1 i) (x0 : Vec F S256x4096 .f32) (x1 : Vec F S256x4096 .f32) (x2 : Vec F S4096x4 .f32) (x3 : Vec F S4 .f32) (x4 : Vec F S256x1 .f32) (x5 : Vec F S256x1 .f32) (x6 : Vec F S256x1 .f32) (x7 : Vec F S8x4 .f32) (x8 : Vec F S8x4 .f32) (x9 : Vec F S8 .f32) (x10 : Vec F S1x8 .f32) (x11 : Vec F S1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = k0_pay4 x0 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S256x4) off2, View.readCov_unit_zero (S := S256x4) _ off2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) off2, View.ld_unit_zero (S := S4096x4) off2]

/-- First point of a row block: the black accumulator likewise. -/
theorem black_first (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S8 .f32) (harg11 : arg11.IsWhole) (arg12 : Memref sig .tc .vmem S1x8 .f32) (harg12 : arg12.IsWhole) (arg13 : Memref sig .tc .vmem S1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : cond0_0 i) (hc1 : ¬cond0_1 i) (x0 : Vec F S256x4096 .f32) (x1 : Vec F S256x4096 .f32) (x2 : Vec F S4096x4 .f32) (x3 : Vec F S4 .f32) (x4 : Vec F S256x1 .f32) (x5 : Vec F S256x1 .f32) (x6 : Vec F S256x1 .f32) (x7 : Vec F S8x4 .f32) (x8 : Vec F S8x4 .f32) (x9 : Vec F S8 .f32) (x10 : Vec F S1x8 .f32) (x11 : Vec F S1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = k0_pay5 x1 x2 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S256x4) off2, View.readCov_unit_zero (S := S256x4) _ off2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) off2, View.ld_unit_zero (S := S4096x4) off2]

/-- A middle point: the white accumulator is what the point before left plus this block's products. -/
theorem white_mid (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S8 .f32) (harg11 : arg11.IsWhole) (arg12 : Memref sig .tc .vmem S1x8 .f32) (harg12 : arg12.IsWhole) (arg13 : Memref sig .tc .vmem S1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : ¬cond0_0 i) (hc1 : ¬cond0_1 i) (x0 : Vec F S256x4096 .f32) (x1 : Vec F S256x4096 .f32) (x2 : Vec F S4096x4 .f32) (x3 : Vec F S4 .f32) (x4 : Vec F S256x1 .f32) (x5 : Vec F S256x1 .f32) (x6 : Vec F S256x1 .f32) (x7 : Vec F S8x4 .f32) (x8 : Vec F S8x4 .f32) (x9 : Vec F S8 .f32) (x10 : Vec F S1x8 .f32) (x11 : Vec F S1 .f32) (xs0 xs1 : Vec F S256x4 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay4 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  sl_unfold_words
  rw [View.canon_unit_zero off2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) off2, View.ld_unit_zero (S := S4096x4) off2, View.ld_unit_zero (S := S256x4) off2]

/-- A middle point: the black accumulator likewise. -/
theorem black_mid (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S8 .f32) (harg11 : arg11.IsWhole) (arg12 : Memref sig .tc .vmem S1x8 .f32) (harg12 : arg12.IsWhole) (arg13 : Memref sig .tc .vmem S1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : ¬cond0_0 i) (hc1 : ¬cond0_1 i) (x0 : Vec F S256x4096 .f32) (x1 : Vec F S256x4096 .f32) (x2 : Vec F S4096x4 .f32) (x3 : Vec F S4 .f32) (x4 : Vec F S256x1 .f32) (x5 : Vec F S256x1 .f32) (x6 : Vec F S256x1 .f32) (x7 : Vec F S8x4 .f32) (x8 : Vec F S8x4 .f32) (x9 : Vec F S8 .f32) (x10 : Vec F S1x8 .f32) (x11 : Vec F S1 .f32) (xs0 xs1 : Vec F S256x4 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay5 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  sl_unfold_words
  rw [View.canon_unit_zero off2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) off2, View.ld_unit_zero (S := S4096x4) off2, View.ld_unit_zero (S := S256x4) off2]

/-- The last point of a row block updates the white accumulator as a middle point does. -/
theorem white_last (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S8 .f32) (harg11 : arg11.IsWhole) (arg12 : Memref sig .tc .vmem S1x8 .f32) (harg12 : arg12.IsWhole) (arg13 : Memref sig .tc .vmem S1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : ¬cond0_0 i) (hc1 : cond0_1 i) (x0 : Vec F S256x4096 .f32) (x1 : Vec F S256x4096 .f32) (x2 : Vec F S4096x4 .f32) (x3 : Vec F S4 .f32) (x4 : Vec F S256x1 .f32) (x5 : Vec F S256x1 .f32) (x6 : Vec F S256x1 .f32) (x7 : Vec F S8x4 .f32) (x8 : Vec F S8x4 .f32) (x9 : Vec F S8 .f32) (x10 : Vec F S1x8 .f32) (x11 : Vec F S1 .f32) (xs0 xs1 : Vec F S256x4 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay4 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero off2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) off2, View.ld_unit_zero (S := S4096x4) off2, View.ld_unit_zero (S := S256x4) off2]

/-- The last point of a row block updates the black accumulator as a middle point does. -/
theorem black_last (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S8 .f32) (harg11 : arg11.IsWhole) (arg12 : Memref sig .tc .vmem S1x8 .f32) (harg12 : arg12.IsWhole) (arg13 : Memref sig .tc .vmem S1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : ¬cond0_0 i) (hc1 : cond0_1 i) (x0 : Vec F S256x4096 .f32) (x1 : Vec F S256x4096 .f32) (x2 : Vec F S4096x4 .f32) (x3 : Vec F S4 .f32) (x4 : Vec F S256x1 .f32) (x5 : Vec F S256x1 .f32) (x6 : Vec F S256x1 .f32) (x7 : Vec F S8x4 .f32) (x8 : Vec F S8x4 .f32) (x9 : Vec F S8 .f32) (x10 : Vec F S1x8 .f32) (x11 : Vec F S1 .f32) (xs0 xs1 : Vec F S256x4 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay5 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero off2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) off2, View.ld_unit_zero (S := S4096x4) off2, View.ld_unit_zero (S := S256x4) off2]

/-- The last point of a row block stores, into the output block, the loss block of the two accumulators it has
    just stored. -/
theorem loss_last (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x4 .f32) (harg4 : arg4.IsWhole) (arg5 : Memref sig .tc .vmem S4 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S8x4 .f32) (harg9 : arg9.IsWhole) (arg10 : Memref sig .tc .vmem S8x4 .f32) (harg10 : arg10.IsWhole) (arg11 : Memref sig .tc .vmem S8 .f32) (harg11 : arg11.IsWhole) (arg12 : Memref sig .tc .vmem S1x8 .f32) (harg12 : arg12.IsWhole) (arg13 : Memref sig .tc .vmem S1 .f32) (harg13 : arg13.IsWhole) (arg14 : Memref sig .tc .vmem S256x1 .f32) (harg14 : arg14.IsWhole) (arg15 : Memref sig .tc .vmem S256x4 .f32) (harg15 : arg15.IsWhole) (arg16 : Memref sig .tc .vmem S256x4 .f32) (harg16 : arg16.IsWhole) (hc0 : ¬cond0_0 i) (hc1 : cond0_1 i) (x0 : Vec F S256x4096 .f32) (x1 : Vec F S256x4096 .f32) (x2 : Vec F S4096x4 .f32) (x3 : Vec F S4 .f32) (x4 : Vec F S256x1 .f32) (x5 : Vec F S256x1 .f32) (x6 : Vec F S256x1 .f32) (x7 : Vec F S8x4 .f32) (x8 : Vec F S8x4 .f32) (x9 : Vec F S8 .f32) (x10 : Vec F S1x8 .f32) (x11 : Vec F S1 .f32) (xs0 xs1 : Vec F S256x4 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = lossBlock x3 (k0_pay4 x0 x2 xs0) (k0_pay5 x1 x2 xs1) x4 x5 x6 x7 x8 x9 x10 x11 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_unit_zero off2]
  unfold lossBlock
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.readCov_unit_zero (S := S256x4) _ off2,
    View.ld_unit_zero (S := S256x4096) off2, View.ld_unit_zero (S := S4096x4) off2, View.ld_unit_zero (S := S256x4) off2,
    View.ld_unit_zero (S := S256x1) off2, View.ld_unit_zero (S := S8x4) off2, View.ld_unit_zero (S := S1x8) off2,
    View.ld_unit_zero (S := S4) off1, View.ld_unit_zero (S := S8) off1, View.ld_unit_zero (S := S1) off1]

end Cert.KernelIdeal.Pieces

end
-- ==== Proof.LossSpec.lean ====
/-
  One position's loss, as extended reals, and the two regroupings of finite sums that relate a blocked
  evaluation of it to a whole one.

  A position has two accumulator rows `W, B : Fin 4 → EReal` (the feature transformer's outputs for the
  white and black feature rows, before the bias), a side-to-move word `t`, a score `s` and a game result `y`.
  With the bias added, the two rows are mixed by `t` in both orders, each clipped to `[0, 1]`; the first
  dense layer maps the eight clipped numbers to eight, clipped again; the second maps those to one number
  `mr`; the loss is `½ (σ(mr/400) − σ(s/400))² + ½ (σ(mr/400) − y)²`, σ the logistic function.

  The feature transformer's dot product over 81920 features is written as a prefix sum `pdot u v n` over
  the first `n` features, so that adding one block of 4096 features at a time is `pdot_block`, starting
  from `pdot_zero` and ending at the whole sum `pdot_full`. The first dense layer's eight-term sum is the
  sum over the first four plus the sum over the last four (`sum8_split`). Both hold in any commutative
  additive monoid; nothing here needs the arguments to be finite.
-/
import Idealize.ShloMosaic.PureOps.Ideal
import Idealize.ShloMosaic.PureOps.Ideal.Laws
import Idealize.ShloMosaic.Lib.IdealHost
import Idealize.ShloMosaic.Lib.ValueIdx
import Mathlib.Algebra.BigOperators.Fin
import Mathlib.Algebra.BigOperators.Intervals

noncomputable section

open scoped BigOperators

namespace Cert.Nnue

open Idealize.ShloMosaic

/-- The four float words the two programs share, as extended reals: `0.0`, `1.0`, `400.0`, `0.5`. -/
abbrev w0 : EReal := Ideal.ofBits .f32 0x00000000#32
abbrev w1 : EReal := Ideal.ofBits .f32 0x3F800000#32
abbrev w400 : EReal := Ideal.ofBits .f32 0x43C80000#32
abbrev whalf : EReal := Ideal.ofBits .f32 0x3F000000#32

/-- Clipping to `[0, 1]`: the lower bound first, then the upper. -/
def clip01 (x : EReal) : EReal := min w1 (max w0 x)

/-- The win probability of an evaluation: the logistic function of a four-hundredth of it. -/
def wdl (x : EReal) : EReal := Ideal.logistic (Ideal.div x w400)

/-- Mixing two numbers by the side to move: `t · a + (1 − t) · b`. -/
def mix (t a b : EReal) : EReal := t * a + (w1 - t) * b

/-- The loss of a model output `mr` against a score `s` and a result `y`. -/
def lossOf (mr s y : EReal) : EReal :=
  whalf * ((wdl mr - wdl s) * (wdl mr - wdl s)) + whalf * ((wdl mr - y) * (wdl mr - y))

/-- The first dense layer's output `n` before clipping, from the two clipped halves `x1`, `x2` and the two
    halves `La`, `Lb` of its weight rows: the first half's products, the second half's, then the bias. -/
def dense1 (x1 x2 : Fin 4 → EReal) (La Lb : Fin 8 → Fin 4 → EReal) (b1 : Fin 8 → EReal) (n : Fin 8) : EReal :=
  (∑ j : Fin 4, x1 j * La n j) + (∑ j : Fin 4, x2 j * Lb n j) + b1 n

/-- One position's loss from its two accumulator rows and the small parameters. -/
def rowLoss (W B ftb : Fin 4 → EReal) (t s y : EReal) (La Lb : Fin 8 → Fin 4 → EReal) (b1 L2 : Fin 8 → EReal)
    (b2 : EReal) : EReal :=
  lossOf ((∑ n : Fin 8,
      clip01 (dense1 (fun j => clip01 (mix t (W j + ftb j) (B j + ftb j)))
        (fun j => clip01 (mix t (B j + ftb j) (W j + ftb j))) La Lb b1 n) * L2 n) + b2) s y

/-- The dot product of two feature rows over the first `n` features. -/
def pdot (u v : Fin 81920 → EReal) (n : ℕ) : EReal :=
  ∑ K ∈ Finset.range n, if h : K < 81920 then u ⟨K, h⟩ * v ⟨K, h⟩ else 0

theorem pdot_zero (u v : Fin 81920 → EReal) : pdot u v 0 = 0 := by
  unfold pdot; rw [Finset.range_zero, Finset.sum_empty]

/-- One more block of 4096 features: the prefix sum grows by that block's products. -/
theorem pdot_block (u v : Fin 81920 → EReal) (k : ℕ) (hk : k < 20) :
    pdot u v ((k + 1) * 4096)
      = pdot u v (k * 4096)
        + ∑ q : Fin 4096, u ⟨k * 4096 + q.val, by have := q.isLt; omega⟩ * v ⟨k * 4096 + q.val, by have := q.isLt; omega⟩ := by
  unfold pdot
  rw [show (k + 1) * 4096 = k * 4096 + 4096 by ring, Finset.sum_range_add, ← Fin.sum_univ_eq_sum_range
    (fun x => if h : k * 4096 + x < 81920 then u ⟨k * 4096 + x, h⟩ * v ⟨k * 4096 + x, h⟩ else 0) 4096]
  congr 1
  refine Finset.sum_congr rfl fun q _ => ?_
  have hq := q.isLt
  rw [dif_pos (by omega)]

/-- After the twentieth block the prefix sum is the whole dot product. -/
theorem pdot_full (u v : Fin 81920 → EReal) : pdot u v (20 * 4096) = ∑ K : Fin 81920, u K * v K := by
  unfold pdot
  rw [show 20 * 4096 = 81920 by norm_num, ← Fin.sum_univ_eq_sum_range
    (fun x => if h : x < 81920 then u ⟨x, h⟩ * v ⟨x, h⟩ else 0) 81920]
  refine Finset.sum_congr rfl fun K _ => ?_
  rw [dif_pos K.isLt]

/-- An eight-term sum is its first four terms plus its last four. -/
theorem sum8_split (f : Fin 8 → EReal) :
    ∑ k : Fin 8, f k
      = (∑ j : Fin 4, f ⟨j.val, by have := j.isLt; omega⟩) + ∑ j : Fin 4, f ⟨4 + j.val, by have := j.isLt; omega⟩ :=
  Fin.sum_univ_add (a := 4) (b := 4) f

/-- The logistic function is the quotient the reference spells out, `1 / (1 + e^(−x))` with the word `1.0`. -/
theorem logistic_spelled (x : EReal) : Ideal.div w1 (w1 + Ideal.exp (-x)) = Ideal.logistic x := by
  show Ideal.div (Ideal.ofBits .f32 0x3F800000#32) (Ideal.ofBits .f32 0x3F800000#32 + Ideal.exp (-x)) = _
  rw [Ideal.ofBits_one_f32]
  rfl

/-! ## The whole batch

The eleven argument arrays at their literal shapes: the two feature matrices `[2048, 81920]`, the side to move,
score and result columns `[2048, 1]`, the feature transformer's weights `[4, 81920]` and bias `[4]`, the first dense
layer's weights `[8, 8]` (output by input) and bias `[8]`, the second's `[1, 8]` and `[1]`. Position `r`'s
accumulator rows are the dot products of its feature rows with the four weight rows; the first dense layer's input
columns `0 … 3` meet the first clipped half and `4 … 7` the second. -/

open Idealize.ShloMosaic.ValueIdx

/-- Position `r`'s loss. -/
def lossRow (white black : (⟨2, ![2048, 81920]⟩ : Shape).Idx → EReal)
    (turn score result : (⟨2, ![2048, 1]⟩ : Shape).Idx → EReal)
    (ftw : (⟨2, ![4, 81920]⟩ : Shape).Idx → EReal) (ftb : (⟨1, ![4]⟩ : Shape).Idx → EReal)
    (l1w : (⟨2, ![8, 8]⟩ : Shape).Idx → EReal) (l1b : (⟨1, ![8]⟩ : Shape).Idx → EReal)
    (l2w : (⟨2, ![1, 8]⟩ : Shape).Idx → EReal) (l2b : (⟨1, ![1]⟩ : Shape).Idx → EReal) (r : Fin 2048) : EReal :=
  rowLoss (fun j => ∑ K : Fin 81920, white (ix2 r K) * ftw (ix2 j K))
    (fun j => ∑ K : Fin 81920, black (ix2 r K) * ftw (ix2 j K))
    (fun j => ftb (ix1 j)) (turn (ix2 r (0 : Fin 1))) (score (ix2 r (0 : Fin 1))) (result (ix2 r (0 : Fin 1)))
    (fun n j => l1w (ix2 n (⟨j.val, by have := j.isLt; omega⟩ : Fin 8)))
    (fun n j => l1w (ix2 n (⟨4 + j.val, by have := j.isLt; omega⟩ : Fin 8)))
    (fun n => l1b (ix1 n)) (fun n => l2w (ix2 (0 : Fin 1) n)) (l2b (ix1 (0 : Fin 1)))

/-- The loss column `[2048, 1]`: entry `(r, 0)` is position `r`'s loss. -/
def lossArr (white black : (⟨2, ![2048, 81920]⟩ : Shape).Idx → EReal)
    (turn score result : (⟨2, ![2048, 1]⟩ : Shape).Idx → EReal)
    (ftw : (⟨2, ![4, 81920]⟩ : Shape).Idx → EReal) (ftb : (⟨1, ![4]⟩ : Shape).Idx → EReal)
    (l1w : (⟨2, ![8, 8]⟩ : Shape).Idx → EReal) (l1b : (⟨1, ![8]⟩ : Shape).Idx → EReal)
    (l2w : (⟨2, ![1, 8]⟩ : Shape).Idx → EReal) (l2b : (⟨1, ![1]⟩ : Shape).Idx → EReal) :
    (⟨2, ![2048, 1]⟩ : Shape).Idx → EReal :=
  fun i => lossRow white black turn score result ftw ftb l1w l1b l2w l2b ⟨(i 0).val, idx2_lt0 i⟩

theorem lossArr_ix2 (white black : (⟨2, ![2048, 81920]⟩ : Shape).Idx → EReal)
    (turn score result : (⟨2, ![2048, 1]⟩ : Shape).Idx → EReal)
    (ftw : (⟨2, ![4, 81920]⟩ : Shape).Idx → EReal) (ftb : (⟨1, ![4]⟩ : Shape).Idx → EReal)
    (l1w : (⟨2, ![8, 8]⟩ : Shape).Idx → EReal) (l1b : (⟨1, ![8]⟩ : Shape).Idx → EReal)
    (l2w : (⟨2, ![1, 8]⟩ : Shape).Idx → EReal) (l2b : (⟨1, ![1]⟩ : Shape).Idx → EReal) (r : Fin 2048) (z : Fin 1) :
    lossArr white black turn score result ftw ftb l1w l1b l2w l2b (ix2 r z)
      = lossRow white black turn score result ftw ftb l1w l1b l2w l2b r := rfl

end Cert.Nnue

end
-- ==== Proof.BlockValues.lean ====
/-
  The kernel body's stored values read at one entry, at the ideal instance.

  An accumulator update adds, to the accumulator's entry `(p, j)`, the sum over the block's 4096 features of
  feature row `p` times weight column `j`; a change of float format is the identity, so the narrowing to
  bf16 in front of the product drops out. The loss block's entry for position `p` is the position's loss
  (`Cert.Nnue.rowLoss`) of row `p` of the two accumulators and of the small operands' blocks: the bias is
  laid along the rows, the side to move across the columns, the first dense layer's two weight halves are
  transposed in front of their products, and the logistic function is the operation of that name.
-/
import proofs.«108676_j31525059952895_1_alg».proof.Proof.KernelOps
import proofs.«108676_j31525059952895_1_alg».proof.Proof.Pieces
import proofs.«108676_j31525059952895_1_alg».proof.Proof.LossSpec

noncomputable section

open scoped BigOperators

open Idealize.ShloMosaic Idealize.ShloMosaic.ValueIdx

namespace Cert.KernelIdeal.BlockValues

open Cert.KernelIdeal Cert.KernelIdeal.Gen Cert.KernelIdeal.Ops Cert.KernelIdeal.Pieces Cert.Nnue

/-- The zero block the first point stores into the white accumulator. -/
theorem zero_white (p : Fin 256) (j : Fin 4) : (k0_pay1 (F := Ideal)) (ix2 p j) = 0 := by
  unfold k0_pay1
  simp only [shapeCast_self]
  exact Ideal.ofBits_zero_f32

/-- The zero block the first point stores into the black accumulator. -/
theorem zero_black (p : Fin 256) (j : Fin 4) : (k0_pay2 (F := Ideal)) (ix2 p j) = 0 := by
  unfold k0_pay2
  simp only [shapeCast_self]
  exact Ideal.ofBits_zero_f32

/-- One update of the white accumulator. -/
theorem white_step (x : Vec Ideal S256x4096 .f32) (w : Vec Ideal S4096x4 .f32) (acc : Vec Ideal S256x4 .f32)
    (p : Fin 256) (j : Fin 4) :
    k0_pay4 (F := Ideal) x w acc (ix2 p j) = acc (ix2 p j) + ∑ q : Fin 4096, x (ix2 p q) * w (ix2 q j) := by
  unfold k0_pay4 k0_pay3
  simp only [shapeCast_self, addf_apply, feat_apply, truncf_apply]

/-- One update of the black accumulator. -/
theorem black_step (x : Vec Ideal S256x4096 .f32) (w : Vec Ideal S4096x4 .f32) (acc : Vec Ideal S256x4 .f32)
    (p : Fin 256) (j : Fin 4) :
    k0_pay5 (F := Ideal) x w acc (ix2 p j) = acc (ix2 p j) + ∑ q : Fin 4096, x (ix2 p q) * w (ix2 q j) := by
  unfold k0_pay5 k0_pay3
  simp only [shapeCast_self, addf_apply, feat_apply, truncf_apply]

/-- The white accumulator with the bias. -/
theorem biased_white (x3 : Vec Ideal S4 .f32) (a0 : Vec Ideal S256x4 .f32) (p : Fin 256) (j : Fin 4) :
    k0_pay7 (F := Ideal) x3 a0 (ix2 p j) = a0 (ix2 p j) + x3 (ix1 j) := by
  unfold k0_pay7
  simp only [addf_apply, rows4_apply]

/-- The black accumulator with the bias. -/
theorem biased_black (x3 : Vec Ideal S4 .f32) (a1 : Vec Ideal S256x4 .f32) (p : Fin 256) (j : Fin 4) :
    k0_pay8 (F := Ideal) x3 a1 (ix2 p j) = a1 (ix2 p j) + x3 (ix1 j) := by
  unfold k0_pay8
  simp only [addf_apply, rows4_apply]

/-- The second clipped half: black mixed over white by the side to move. -/
theorem half_black (x3 : Vec Ideal S4 .f32) (a0 a1 : Vec Ideal S256x4 .f32) (x4 : Vec Ideal S256x1 .f32)
    (p : Fin 256) (j : Fin 4) :
    k0_pay9 (F := Ideal) x3 a0 a1 x4 (ix2 p j)
      = clip01 (mix (x4 (ix2 p (0 : Fin 1))) (a1 (ix2 p j) + x3 (ix1 j)) (a0 (ix2 p j) + x3 (ix1 j))) := by
  unfold k0_pay9
  simp only [minimumf_apply, maximumf_apply, addf_apply, mulf_apply, subf_apply, cols4_apply, broadcast_apply,
    biased_white, biased_black]
  rfl

/-- The first clipped half against the left weight columns: entry `(p, n)` of the first dense layer's first
    product. -/
theorem dense1_white (x3 : Vec Ideal S4 .f32) (a0 a1 : Vec Ideal S256x4 .f32) (x4 : Vec Ideal S256x1 .f32)
    (x7 : Vec Ideal S8x4 .f32) (p : Fin 256) (n : Fin 8) :
    k0_pay10 (F := Ideal) x3 a0 a1 x4 x7 (ix2 p n)
      = ∑ j : Fin 4, clip01 (mix (x4 (ix2 p (0 : Fin 1))) (a0 (ix2 p j) + x3 (ix1 j)) (a1 (ix2 p j) + x3 (ix1 j)))
          * x7 (ix2 n j) := by
  unfold k0_pay10
  simp only [shapeCast_self, dense1_apply, tr84_apply x7, minimumf_apply, maximumf_apply, addf_apply, mulf_apply,
    subf_apply, cols4_apply, broadcast_apply, biased_white, biased_black]
  rfl

/-- The right weight columns transposed. -/
theorem l1b_tr (x8 : Vec Ideal S8x4 .f32) (j : Fin 4) (n : Fin 8) : k0_pay11 (F := Ideal) x8 (ix2 j n) = x8 (ix2 n j) := by
  unfold k0_pay11
  simp only [shapeCast_self, tr84_apply x8]

/-- The logistic function of a block, at an entry. -/
theorem logistic_apply {s : Shape} {φ : FTy} (x : FVec Ideal s φ) (i : s.Idx) : logistic x i = Ideal.logistic (x i) := rfl

/-- The loss block's entry for position `p` of the block. -/
theorem lossBlock_apply (x3 : Vec Ideal S4 .f32) (a0 a1 : Vec Ideal S256x4 .f32) (x4 x5 x6 : Vec Ideal S256x1 .f32)
    (x7 x8 : Vec Ideal S8x4 .f32) (x9 : Vec Ideal S8 .f32) (x10 : Vec Ideal S1x8 .f32) (x11 : Vec Ideal S1 .f32)
    (p : Fin 256) (z : Fin 1) :
    lossBlock (F := Ideal) x3 a0 a1 x4 x5 x6 x7 x8 x9 x10 x11 (ix2 p z)
      = rowLoss (fun j => a0 (ix2 p j)) (fun j => a1 (ix2 p j)) (fun j => x3 (ix1 j))
          (x4 (ix2 p (0 : Fin 1))) (x5 (ix2 p (0 : Fin 1))) (x6 (ix2 p (0 : Fin 1)))
          (fun n j => x7 (ix2 n j)) (fun n j => x8 (ix2 n j)) (fun n => x9 (ix1 n))
          (fun n => x10 (ix2 (0 : Fin 1) n)) (x11 (ix1 (0 : Fin 1))) := by
  obtain rfl : z = 0 := Subsingleton.elim _ _
  unfold lossBlock k0_pay6
  simp only [addf_apply, mulf_apply, subf_apply, divf_apply, minimumf_apply, maximumf_apply, broadcast_apply,
    logistic_apply, dense2_apply, dense1_apply, tr18_apply x10, rows8_apply, rows1_apply, dense1_white, half_black,
    l1b_tr]
  rfl

end Cert.KernelIdeal.BlockValues

end
-- ==== Proof.Windows.lean ====
/-
  What each staged block holds, entry by entry, in terms of the argument arrays.

  Point `t` of the 8 by 20 grid is row block `t / 20` and feature block `t % 20`. The two feature windows
  stage rows `256 (t / 20) + p`, features `4096 (t % 20) + q`; the weight window stages the transposed
  transformer weights' rows `4096 (t % 20) + q`, that is, column `4096 (t % 20) + q` of the weights; the
  three per-position columns stage rows `256 (t / 20) + p`; the small parameters are staged whole, the first
  dense layer's weights as their left and right four columns.
-/
import proofs.«108676_j31525059952895_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Windows

open Cert.KernelIdeal Cert.KernelIdeal.Gen

variable {F : FTy → Type} [FloatOps F]
variable (m : (ℓ : Loc nD τ sig) → Buf (Elt F) ℓ)

/-- The grid has 160 points. -/
theorem lt160 (t : Fin cfg0.N) : t.val < 160 := lt_of_lt_of_eq t.isLt (show cfg0.N = 160 from N_0)

/-! ## The index maps in closed form (decided over the grid) -/

theorem index_white : ∀ t : Fin cfg0.N, win0_0.index t 0 = t.val / 20 ∧ win0_0.index t 1 = t.val % 20 :=
  (by decide +kernel : ∀ t : Fin grid0.N, win0_0.index t 0 = t.val / 20 ∧ win0_0.index t 1 = t.val % 20)

theorem index_black : ∀ t : Fin cfg0.N, win0_1.index t 0 = t.val / 20 ∧ win0_1.index t 1 = t.val % 20 :=
  (by decide +kernel : ∀ t : Fin grid0.N, win0_1.index t 0 = t.val / 20 ∧ win0_1.index t 1 = t.val % 20)

theorem index_ftwT : ∀ t : Fin cfg0.N, win0_2.index t 0 = t.val % 20 ∧ win0_2.index t 1 = 0 :=
  (by decide +kernel : ∀ t : Fin grid0.N, win0_2.index t 0 = t.val % 20 ∧ win0_2.index t 1 = 0)

theorem index_ftb : ∀ t : Fin cfg0.N, win0_3.index t 0 = 0 :=
  (by decide +kernel : ∀ t : Fin grid0.N, win0_3.index t 0 = 0)

theorem index_turn : ∀ t : Fin cfg0.N, win0_4.index t 0 = t.val / 20 ∧ win0_4.index t 1 = 0 :=
  (by decide +kernel : ∀ t : Fin grid0.N, win0_4.index t 0 = t.val / 20 ∧ win0_4.index t 1 = 0)

theorem index_score : ∀ t : Fin cfg0.N, win0_5.index t 0 = t.val / 20 ∧ win0_5.index t 1 = 0 :=
  (by decide +kernel : ∀ t : Fin grid0.N, win0_5.index t 0 = t.val / 20 ∧ win0_5.index t 1 = 0)

theorem index_result : ∀ t : Fin cfg0.N, win0_6.index t 0 = t.val / 20 ∧ win0_6.index t 1 = 0 :=
  (by decide +kernel : ∀ t : Fin grid0.N, win0_6.index t 0 = t.val / 20 ∧ win0_6.index t 1 = 0)

theorem index_l1a : ∀ t : Fin cfg0.N, win0_7.index t 0 = 0 ∧ win0_7.index t 1 = 0 :=
  (by decide +kernel : ∀ t : Fin grid0.N, win0_7.index t 0 = 0 ∧ win0_7.index t 1 = 0)

theorem index_l1b : ∀ t : Fin cfg0.N, win0_8.index t 0 = 0 ∧ win0_8.index t 1 = 0 :=
  (by decide +kernel : ∀ t : Fin grid0.N, win0_8.index t 0 = 0 ∧ win0_8.index t 1 = 0)

theorem index_bias1 : ∀ t : Fin cfg0.N, win0_9.index t 0 = 0 :=
  (by decide +kernel : ∀ t : Fin grid0.N, win0_9.index t 0 = 0)

theorem index_l2 : ∀ t : Fin cfg0.N, win0_10.index t 0 = 0 ∧ win0_10.index t 1 = 0 :=
  (by decide +kernel : ∀ t : Fin grid0.N, win0_10.index t 0 = 0 ∧ win0_10.index t 1 = 0)

theorem index_bias2 : ∀ t : Fin cfg0.N, win0_11.index t 0 = 0 :=
  (by decide +kernel : ∀ t : Fin grid0.N, win0_11.index t 0 = 0)

theorem index_loss : ∀ t : Fin cfg0.N, win0_12.index t 0 = t.val / 20 ∧ win0_12.index t 1 = 0 :=
  (by decide +kernel : ∀ t : Fin grid0.N, win0_12.index t 0 = t.val / 20 ∧ win0_12.index t 1 = 0)

/-! ## What the region finds in the three arrays the host prefix writes -/

/-- The transposed transformer weights. -/
theorem entry_ftwT (c : Dev nD) :
    (V m c main_v0 : Vec F S81920x4 .f32)
      = transpose S81920x4 [1, 0] (m ((c : Thread nD τ).loc main_arg5)) transposes_S4x81920_S81920x4_1_0 := by
  dsimp only [Gen.V, Gen.hostOps0]; after_results

/-- The first dense layer's left four weight columns. -/
theorem entry_l1a (c : Dev nD) :
    (V m c main_v1 : Vec F S8x4 .f32)
      = extractStridedSlice S8x4 ![0, 0] (m ((c : Thread nD τ).loc main_arg7)) slices_S8x8_S8x4_0_0 := by
  dsimp only [Gen.V, Gen.hostOps0]; after_results

/-- The first dense layer's right four weight columns. -/
theorem entry_l1b (c : Dev nD) :
    (V m c main_v2 : Vec F S8x4 .f32)
      = extractStridedSlice S8x4 ![0, 4] (m ((c : Thread nD τ).loc main_arg7)) slices_S8x8_S8x4_0_4 := by
  dsimp only [Gen.V, Gen.hostOps0]; after_results

/-! ## The blocks -/

/-- The white feature block. -/
theorem white_blk (c : Dev nD) (t : Fin cfg0.N) (p : Fin 256) (q : Fin 4096) :
    (iblk m c 0 t : Vec F S256x4096 .f32) (ix2 p q)
      = (m ((c : Thread nD τ).loc main_arg0) : Vec F S2048x81920 .f32)
          (ix2 (⟨t.val / 20 * 256 + p.val, by have := lt160 t; have := p.isLt; omega⟩ : Fin 2048)
            (⟨t.val % 20 * 4096 + q.val, by have := q.isLt; omega⟩ : Fin 81920)) := by
  have hi := index_white t
  unfold iblk
  rw [View.read_apply]
  show V m c main_arg0 _ = _
  rw [V_main_arg0]
  congr 1
  funext a
  apply Fin.ext
  match a with
  | ⟨0, _⟩ => show win0_0.index t 0 * 256 + 1 * p.val = t.val / 20 * 256 + p.val; rw [hi.1]; omega
  | ⟨1, _⟩ => show win0_0.index t 1 * 4096 + 1 * q.val = t.val % 20 * 4096 + q.val; rw [hi.2]; omega

/-- The black feature block. -/
theorem black_blk (c : Dev nD) (t : Fin cfg0.N) (p : Fin 256) (q : Fin 4096) :
    (iblk m c 1 t : Vec F S256x4096 .f32) (ix2 p q)
      = (m ((c : Thread nD τ).loc main_arg1) : Vec F S2048x81920 .f32)
          (ix2 (⟨t.val / 20 * 256 + p.val, by have := lt160 t; have := p.isLt; omega⟩ : Fin 2048)
            (⟨t.val % 20 * 4096 + q.val, by have := q.isLt; omega⟩ : Fin 81920)) := by
  have hi := index_black t
  unfold iblk
  rw [View.read_apply]
  show V m c main_arg1 _ = _
  rw [V_main_arg1]
  congr 1
  funext a
  apply Fin.ext
  match a with
  | ⟨0, _⟩ => show win0_1.index t 0 * 256 + 1 * p.val = t.val / 20 * 256 + p.val; rw [hi.1]; omega
  | ⟨1, _⟩ => show win0_1.index t 1 * 4096 + 1 * q.val = t.val % 20 * 4096 + q.val; rw [hi.2]; omega

/-- The transformer weights' block: row `q`, column `j` of the transposed weights' block is weight row `j`
    at feature `4096 (t % 20) + q`. -/
theorem ftwT_blk (c : Dev nD) (t : Fin cfg0.N) (q : Fin 4096) (j : Fin 4) :
    (iblk m c 2 t : Vec F S4096x4 .f32) (ix2 q j)
      = (m ((c : Thread nD τ).loc main_arg5) : Vec F S4x81920 .f32)
          (ix2 j (⟨t.val % 20 * 4096 + q.val, by have := q.isLt; omega⟩ : Fin 81920)) := by
  have hi := index_ftwT t
  unfold iblk
  rw [View.read_apply]
  show (V m c main_v0 : Vec F S81920x4 .f32) _ = _
  rw [entry_ftwT]
  refine Eq.trans (congrArg _ ?_)
    (transpose_ix2_apply (m ((c : Thread nD τ).loc main_arg5)) transposes_S4x81920_S81920x4_1_0
      (⟨t.val % 20 * 4096 + q.val, by have := q.isLt; omega⟩ : Fin 81920) j)
  funext a
  apply Fin.ext
  match a with
  | ⟨0, _⟩ => show win0_2.index t 0 * 4096 + 1 * q.val = t.val % 20 * 4096 + q.val; rw [hi.1]; omega
  | ⟨1, _⟩ => show win0_2.index t 1 * 4 + 1 * j.val = j.val; rw [hi.2]; omega

/-- The transformer bias, staged whole. -/
theorem ftb_blk (c : Dev nD) (t : Fin cfg0.N) (j : Fin 4) :
    (iblk m c 3 t : Vec F S4 .f32) (ix1 j) = (m ((c : Thread nD τ).loc main_arg6) : Vec F S4 .f32) (ix1 j) := by
  have hi := index_ftb t
  unfold iblk
  rw [View.read_apply]
  show V m c main_arg6 _ = _
  rw [V_main_arg6]
  congr 1
  funext a
  apply Fin.ext
  match a with
  | ⟨0, _⟩ => show win0_3.index t 0 * 4 + 1 * j.val = j.val; rw [hi]; omega

/-- The side-to-move column's block. -/
theorem turn_blk (c : Dev nD) (t : Fin cfg0.N) (p : Fin 256) (z : Fin 1) :
    (iblk m c 4 t : Vec F S256x1 .f32) (ix2 p z)
      = (m ((c : Thread nD τ).loc main_arg2) : Vec F S2048x1 .f32)
          (ix2 (⟨t.val / 20 * 256 + p.val, by have := lt160 t; have := p.isLt; omega⟩ : Fin 2048) z) := by
  have hi := index_turn t
  unfold iblk
  rw [View.read_apply]
  show V m c main_arg2 _ = _
  rw [V_main_arg2]
  congr 1
  funext a
  apply Fin.ext
  match a with
  | ⟨0, _⟩ => show win0_4.index t 0 * 256 + 1 * p.val = t.val / 20 * 256 + p.val; rw [hi.1]; omega
  | ⟨1, _⟩ => show win0_4.index t 1 * 1 + 1 * z.val = z.val; rw [hi.2]; omega

/-- The score column's block. -/
theorem score_blk (c : Dev nD) (t : Fin cfg0.N) (p : Fin 256) (z : Fin 1) :
    (iblk m c 5 t : Vec F S256x1 .f32) (ix2 p z)
      = (m ((c : Thread nD τ).loc main_arg3) : Vec F S2048x1 .f32)
          (ix2 (⟨t.val / 20 * 256 + p.val, by have := lt160 t; have := p.isLt; omega⟩ : Fin 2048) z) := by
  have hi := index_score t
  unfold iblk
  rw [View.read_apply]
  show V m c main_arg3 _ = _
  rw [V_main_arg3]
  congr 1
  funext a
  apply Fin.ext
  match a with
  | ⟨0, _⟩ => show win0_5.index t 0 * 256 + 1 * p.val = t.val / 20 * 256 + p.val; rw [hi.1]; omega
  | ⟨1, _⟩ => show win0_5.index t 1 * 1 + 1 * z.val = z.val; rw [hi.2]; omega

/-- The result column's block. -/
theorem result_blk (c : Dev nD) (t : Fin cfg0.N) (p : Fin 256) (z : Fin 1) :
    (iblk m c 6 t : Vec F S256x1 .f32) (ix2 p z)
      = (m ((c : Thread nD τ).loc main_arg4) : Vec F S2048x1 .f32)
          (ix2 (⟨t.val / 20 * 256 + p.val, by have := lt160 t; have := p.isLt; omega⟩ : Fin 2048) z) := by
  have hi := index_result t
  unfold iblk
  rw [View.read_apply]
  show V m c main_arg4 _ = _
  rw [V_main_arg4]
  congr 1
  funext a
  apply Fin.ext
  match a with
  | ⟨0, _⟩ => show win0_6.index t 0 * 256 + 1 * p.val = t.val / 20 * 256 + p.val; rw [hi.1]; omega
  | ⟨1, _⟩ => show win0_6.index t 1 * 1 + 1 * z.val = z.val; rw [hi.2]; omega

/-- The first dense layer's left weight columns, staged whole: entry `(n, j)` is weight `(n, j)`. -/
theorem l1a_blk (c : Dev nD) (t : Fin cfg0.N) (n : Fin 8) (j : Fin 4) :
    (iblk m c 7 t : Vec F S8x4 .f32) (ix2 n j)
      = (m ((c : Thread nD τ).loc main_arg7) : Vec F S8x8 .f32) (ix2 n (⟨j.val, by have := j.isLt; omega⟩ : Fin 8)) := by
  have hi := index_l1a t
  unfold iblk
  rw [View.read_apply]
  show (V m c main_v1 : Vec F S8x4 .f32) _ = _
  rw [entry_l1a]
  unfold extractStridedSlice
  congr 1
  funext a
  apply Fin.ext
  match a with
  | ⟨0, _⟩ => show 0 + (win0_7.index t 0 * 8 + 1 * n.val) = n.val; rw [hi.1]; omega
  | ⟨1, _⟩ => show 0 + (win0_7.index t 1 * 4 + 1 * j.val) = j.val; rw [hi.2]; omega

/-- The first dense layer's right weight columns, staged whole: entry `(n, j)` is weight `(n, 4 + j)`. -/
theorem l1b_blk (c : Dev nD) (t : Fin cfg0.N) (n : Fin 8) (j : Fin 4) :
    (iblk m c 8 t : Vec F S8x4 .f32) (ix2 n j)
      = (m ((c : Thread nD τ).loc main_arg7) : Vec F S8x8 .f32) (ix2 n (⟨4 + j.val, by have := j.isLt; omega⟩ : Fin 8)) := by
  have hi := index_l1b t
  unfold iblk
  rw [View.read_apply]
  show (V m c main_v2 : Vec F S8x4 .f32) _ = _
  rw [entry_l1b]
  unfold extractStridedSlice
  congr 1
  funext a
  apply Fin.ext
  match a with
  | ⟨0, _⟩ => show 0 + (win0_8.index t 0 * 8 + 1 * n.val) = n.val; rw [hi.1]; omega
  | ⟨1, _⟩ => show 4 + (win0_8.index t 1 * 4 + 1 * j.val) = 4 + j.val; rw [hi.2]; omega

/-- The first dense layer's bias, staged whole. -/
theorem bias1_blk (c : Dev nD) (t : Fin cfg0.N) (n : Fin 8) :
    (iblk m c 9 t : Vec F S8 .f32) (ix1 n) = (m ((c : Thread nD τ).loc main_arg8) : Vec F S8 .f32) (ix1 n) := by
  have hi := index_bias1 t
  unfold iblk
  rw [View.read_apply]
  show V m c main_arg8 _ = _
  rw [V_main_arg8]
  congr 1
  funext a
  apply Fin.ext
  match a with
  | ⟨0, _⟩ => show win0_9.index t 0 * 8 + 1 * n.val = n.val; rw [hi]; omega

/-- The second dense layer's weights, staged whole. -/
theorem l2_blk (c : Dev nD) (t : Fin cfg0.N) (z : Fin 1) (n : Fin 8) :
    (iblk m c 10 t : Vec F S1x8 .f32) (ix2 z n) = (m ((c : Thread nD τ).loc main_arg9) : Vec F S1x8 .f32) (ix2 z n) := by
  have hi := index_l2 t
  unfold iblk
  rw [View.read_apply]
  show V m c main_arg9 _ = _
  rw [V_main_arg9]
  congr 1
  funext a
  apply Fin.ext
  match a with
  | ⟨0, _⟩ => show win0_10.index t 0 * 1 + 1 * z.val = z.val; rw [hi.1]; omega
  | ⟨1, _⟩ => show win0_10.index t 1 * 8 + 1 * n.val = n.val; rw [hi.2]; omega

/-- The second dense layer's bias, staged whole. -/
theorem bias2_blk (c : Dev nD) (t : Fin cfg0.N) (z : Fin 1) :
    (iblk m c 11 t : Vec F S1 .f32) (ix1 z) = (m ((c : Thread nD τ).loc main_arg10) : Vec F S1 .f32) (ix1 z) := by
  have hi := index_bias2 t
  unfold iblk
  rw [View.read_apply]
  show V m c main_arg10 _ = _
  rw [V_main_arg10]
  congr 1
  funext a
  apply Fin.ext
  match a with
  | ⟨0, _⟩ => show win0_11.index t 0 * 1 + 1 * z.val = z.val; rw [hi]; omega

end Cert.KernelIdeal.Windows

end
-- ==== Proof.Accumulate.lean ====
/-
  What the two accumulators hold after every point of the grid.

  Point `n` belongs to row block `n / 20` and adds feature block `n % 20`. After it, entry `(p, j)` of the white
  accumulator is the dot product of white feature row `256 (n / 20) + p` with transformer weight row `j` over
  the first `4096 (n % 20 + 1)` features, and the black accumulator the same with the black feature row. At the
  first point of a row block the accumulator is reset, so the prefix is that block alone; at every later
  point the point before left the prefix one block shorter, of the same feature row, and this point's block
  products extend it (`Cert.Nnue.pdot_block`). By induction on the point.
-/
import proofs.«108676_j31525059952895_1_alg».proof.Proof.BlockValues
import proofs.«108676_j31525059952895_1_alg».proof.Proof.Windows

noncomputable section

open scoped BigOperators

open Idealize.ShloMosaic Idealize.ShloMosaic.TcCoe Idealize.SL.Sem Idealize.ShloMosaic.ValueIdx

namespace Cert.KernelIdeal.Accumulate

open Cert.KernelIdeal Cert.KernelIdeal.Gen Cert.KernelIdeal.Pieces Cert.KernelIdeal.BlockValues Cert.KernelIdeal.Windows
  Cert.Nnue

variable (m : (ℓ : Loc nD τ sig) → Buf (Elt Ideal) ℓ)

/-- White feature row `256 i + p`. -/
def whiteRow (c : Dev nD) (i : ℕ) (hi : i < 8) (p : Fin 256) : Fin 81920 → EReal := fun K =>
  (m ((c : Thread nD τ).loc main_arg0) : Vec Ideal S2048x81920 .f32)
    (ix2 (⟨i * 256 + p.val, by have := p.isLt; omega⟩ : Fin 2048) K)

/-- Black feature row `256 i + p`. -/
def blackRow (c : Dev nD) (i : ℕ) (hi : i < 8) (p : Fin 256) : Fin 81920 → EReal := fun K =>
  (m ((c : Thread nD τ).loc main_arg1) : Vec Ideal S2048x81920 .f32)
    (ix2 (⟨i * 256 + p.val, by have := p.isLt; omega⟩ : Fin 2048) K)

/-- Transformer weight row `j`. -/
def weightRow (c : Dev nD) (j : Fin 4) : Fin 81920 → EReal := fun K =>
  (m ((c : Thread nD τ).loc main_arg5) : Vec Ideal S4x81920 .f32) (ix2 j K)

theorem whiteRow_congr (c : Dev nD) (i i' : ℕ) (hi : i < 8) (hi' : i' < 8) (e : i = i') (p : Fin 256) :
    whiteRow m c i hi p = whiteRow m c i' hi' p := by subst e; rfl

theorem blackRow_congr (c : Dev nD) (i i' : ℕ) (hi : i < 8) (hi' : i' < 8) (e : i = i') (p : Fin 256) :
    blackRow m c i hi p = blackRow m c i' hi' p := by subst e; rfl

/-- A point's row block is one of the eight. -/
theorem rowblock_lt (n : ℕ) (h : n < cfg0.N) : n / 20 < 8 := by
  have := lt_of_lt_of_eq h (show cfg0.N = 160 from N_0); omega

/-- Extending a prefix by feature block `k`: a previous value that is the prefix over `k` blocks, plus the
    products of block `k`'s entries, is the prefix over `k + 1` blocks. -/
theorem extend (u v : Fin 81920 → EReal) (k : ℕ) (hk : k < 20) (prev : EReal) (hprev : prev = pdot u v (k * 4096))
    (f g : Fin 4096 → EReal)
    (hf : ∀ q : Fin 4096, f q = u ⟨k * 4096 + q.val, by have := q.isLt; omega⟩)
    (hg : ∀ q : Fin 4096, g q = v ⟨k * 4096 + q.val, by have := q.isLt; omega⟩) :
    prev + ∑ q : Fin 4096, f q * g q = pdot u v ((k + 1) * 4096) := by
  rw [pdot_block u v k hk, hprev]
  exact congrArg (pdot u v (k * 4096) + ·) (Finset.sum_congr rfl fun q _ => by rw [hf q, hg q])

/-- The statement about point `n`. -/
def Holds (c : Dev nD) (n : ℕ) (h : n < cfg0.N) : Prop :=
  ∀ (p : Fin 256) (j : Fin 4),
    (outsAt0 m c n h).2.1 (ix2 p j)
        = pdot (whiteRow m c (n / 20) (rowblock_lt n h) p) (weightRow m c j) ((n % 20 + 1) * 4096)
    ∧ (outsAt0 m c n h).2.2 (ix2 p j)
        = pdot (blackRow m c (n / 20) (rowblock_lt n h) p) (weightRow m c j) ((n % 20 + 1) * 4096)

/-- The first point of a row block. -/
theorem first_point (c : Dev nD) (t : Fin cfg0.N) (h0 : t.val % 20 = 0) (h1 : ¬t.val % 20 = 19) :
    Holds m c t.val t.isLt := by
  intro p j
  have hc0 : cond0_0 (grid0.coords t) := (hcond0_0 t).mpr h0
  have hc1 : ¬cond0_1 (grid0.coords t) := fun h => h1 ((hcond0_1 t).mp h)
  have hz : pdot (whiteRow m c (t.val / 20) (rowblock_lt t.val t.isLt) p) (weightRow m c j) (t.val % 20 * 4096) = 0 := by
    rw [h0, Nat.zero_mul, pdot_zero]
  have hz' : pdot (blackRow m c (t.val / 20) (rowblock_lt t.val t.isLt) p) (weightRow m c j) (t.val % 20 * 4096) = 0 := by
    rw [h0, Nat.zero_mul, pdot_zero]
  rw [outsAt0_A m c t h0 h1]
  dsimp only
  constructor
  · refine (congrFun (white_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 p j)).trans ?_
    refine (white_step (iblk m c 0 t) (iblk m c 2 t) (k0_pay1 (F := Ideal)) p j).trans ?_
    exact extend _ _ (t.val % 20) (Nat.mod_lt _ (by decide)) _ ((zero_white p j).trans hz.symm) _ _
      (fun q => white_blk m c t p q) (fun q => ftwT_blk m c t q j)
  · refine (congrFun (black_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 p j)).trans ?_
    refine (black_step (iblk m c 1 t) (iblk m c 2 t) (k0_pay2 (F := Ideal)) p j).trans ?_
    exact extend _ _ (t.val % 20) (Nat.mod_lt _ (by decide)) _ ((zero_black p j).trans hz'.symm) _ _
      (fun q => black_blk m c t p q) (fun q => ftwT_blk m c t q j)

/-- What the point before left, restated for this point's row block and feature block. -/
theorem carried (c : Dev nD) (t : Fin cfg0.N) (h0 : ¬t.val % 20 = 0)
    (ih : Holds m c (t.val - 1) (Nat.lt_of_le_of_lt (Nat.sub_le _ _) t.isLt)) (p : Fin 256) (j : Fin 4) :
    (outsAt0 m c (t.val - 1) (Nat.lt_of_le_of_lt (Nat.sub_le _ _) t.isLt)).2.1 (ix2 p j)
        = pdot (whiteRow m c (t.val / 20) (rowblock_lt t.val t.isLt) p) (weightRow m c j) (t.val % 20 * 4096)
    ∧ (outsAt0 m c (t.val - 1) (Nat.lt_of_le_of_lt (Nat.sub_le _ _) t.isLt)).2.2 (ix2 p j)
        = pdot (blackRow m c (t.val / 20) (rowblock_lt t.val t.isLt) p) (weightRow m c j) (t.val % 20 * 4096) := by
  have hN := lt160 t
  have hk : (t.val - 1) % 20 + 1 = t.val % 20 := by omega
  have hr : (t.val - 1) / 20 = t.val / 20 := by omega
  have hw := whiteRow_congr m c _ _ (rowblock_lt (t.val - 1) (Nat.lt_of_le_of_lt (Nat.sub_le _ _) t.isLt))
    (rowblock_lt t.val t.isLt) hr p
  have hb := blackRow_congr m c _ _ (rowblock_lt (t.val - 1) (Nat.lt_of_le_of_lt (Nat.sub_le _ _) t.isLt))
    (rowblock_lt t.val t.isLt) hr p
  obtain ⟨e1, e2⟩ := ih p j
  rw [hw, hk] at e1
  rw [hb, hk] at e2
  exact ⟨e1, e2⟩

/-- A middle point of a row block. -/
theorem mid_point (c : Dev nD) (t : Fin cfg0.N) (h0 : ¬t.val % 20 = 0) (h1 : ¬t.val % 20 = 19)
    (ih : Holds m c (t.val - 1) (Nat.lt_of_le_of_lt (Nat.sub_le _ _) t.isLt)) : Holds m c t.val t.isLt := by
  intro p j
  have hc0 : ¬cond0_0 (grid0.coords t) := fun h => h0 ((hcond0_0 t).mp h)
  have hc1 : ¬cond0_1 (grid0.coords t) := fun h => h1 ((hcond0_1 t).mp h)
  obtain ⟨e1, e2⟩ := carried m c t h0 ih p j
  rw [outsAt0_B m c t h0 h1]
  dsimp only
  constructor
  · refine (congrFun (white_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (outsAt0 m c (t.val - 1) (Nat.lt_of_le_of_lt (Nat.sub_le _ _) t.isLt)).2.1
      (outsAt0 m c (t.val - 1) (Nat.lt_of_le_of_lt (Nat.sub_le _ _) t.isLt)).2.2) (ix2 p j)).trans ?_
    refine (white_step (iblk m c 0 t) (iblk m c 2 t) _ p j).trans ?_
    exact extend _ _ (t.val % 20) (Nat.mod_lt _ (by decide)) _ e1 _ _
      (fun q => white_blk m c t p q) (fun q => ftwT_blk m c t q j)
  · refine (congrFun (black_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (outsAt0 m c (t.val - 1) (Nat.lt_of_le_of_lt (Nat.sub_le _ _) t.isLt)).2.1
      (outsAt0 m c (t.val - 1) (Nat.lt_of_le_of_lt (Nat.sub_le _ _) t.isLt)).2.2) (ix2 p j)).trans ?_
    refine (black_step (iblk m c 1 t) (iblk m c 2 t) _ p j).trans ?_
    exact extend _ _ (t.val % 20) (Nat.mod_lt _ (by decide)) _ e2 _ _
      (fun q => black_blk m c t p q) (fun q => ftwT_blk m c t q j)

/-- The last point of a row block. -/
theorem last_point (c : Dev nD) (t : Fin cfg0.N) (h0 : ¬t.val % 20 = 0) (h1 : t.val % 20 = 19)
    (ih : Holds m c (t.val - 1) (Nat.lt_of_le_of_lt (Nat.sub_le _ _) t.isLt)) : Holds m c t.val t.isLt := by
  intro p j
  have hc0 : ¬cond0_0 (grid0.coords t) := fun h => h0 ((hcond0_0 t).mp h)
  have hc1 : cond0_1 (grid0.coords t) := (hcond0_1 t).mpr h1
  obtain ⟨e1, e2⟩ := carried m c t h0 ih p j
  rw [outsAt0_C m c t h0 h1]
  dsimp only
  constructor
  · refine (congrFun (white_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (outsAt0 m c (t.val - 1) (Nat.lt_of_le_of_lt (Nat.sub_le _ _) t.isLt)).2.1
      (outsAt0 m c (t.val - 1) (Nat.lt_of_le_of_lt (Nat.sub_le _ _) t.isLt)).2.2) (ix2 p j)).trans ?_
    refine (white_step (iblk m c 0 t) (iblk m c 2 t) _ p j).trans ?_
    exact extend _ _ (t.val % 20) (Nat.mod_lt _ (by decide)) _ e1 _ _
      (fun q => white_blk m c t p q) (fun q => ftwT_blk m c t q j)
  · refine (congrFun (black_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (outsAt0 m c (t.val - 1) (Nat.lt_of_le_of_lt (Nat.sub_le _ _) t.isLt)).2.1
      (outsAt0 m c (t.val - 1) (Nat.lt_of_le_of_lt (Nat.sub_le _ _) t.isLt)).2.2) (ix2 p j)).trans ?_
    refine (black_step (iblk m c 1 t) (iblk m c 2 t) _ p j).trans ?_
    exact extend _ _ (t.val % 20) (Nat.mod_lt _ (by decide)) _ e2 _ _
      (fun q => black_blk m c t p q) (fun q => ftwT_blk m c t q j)

/-- The accumulators after every point. -/
theorem holds (c : Dev nD) : ∀ (n : ℕ) (h : n < cfg0.N), Holds m c n h
  | 0, h => first_point m c ⟨0, h⟩ rfl (by show ¬(0 : ℕ) % 20 = 19; decide)
  | n + 1, h => by
    have hN := lt_of_lt_of_eq h (show cfg0.N = 160 from N_0)
    by_cases h0 : (n + 1) % 20 = 0
    · exact first_point m c ⟨n + 1, h⟩ h0 (by show ¬(n + 1) % 20 = 19; omega)
    · by_cases h1 : (n + 1) % 20 = 19
      · exact last_point m c ⟨n + 1, h⟩ h0 h1 (holds c n (Nat.lt_of_succ_lt h))
      · exact mid_point m c ⟨n + 1, h⟩ h0 h1 (holds c n (Nat.lt_of_succ_lt h))

end Cert.KernelIdeal.Accumulate

end
-- ==== Proof.LossFinal.lean ====
/-
  The kernel's result array is the loss column.

  The output block of row block `i` is written back once, after the row block's last point `20 i + 19`. There
  the two accumulators hold the whole dot products (the prefix over all twenty feature blocks), so the stored
  loss block's entry for position `p` of the block is the loss of position `256 i + p` of the batch
  (`Cert.Nnue.lossRow` of the argument arrays). Row `r` of the result is covered by the write-back of row block
  `r / 256`, and every write-back writes the loss column's own block, so the array ends at the loss column.
-/
import proofs.«108676_j31525059952895_1_alg».proof.Proof.Gen.KernelIdeal.Value
import proofs.«108676_j31525059952895_1_alg».proof.Proof.Accumulate

noncomputable section

open scoped BigOperators

open Idealize.ShloMosaic Idealize.ShloMosaic.TcCoe Idealize.SL.Sem Idealize.ShloMosaic.ValueIdx
open Idealize.ShloMosaic.Pipeline (Dat)

namespace Cert.KernelIdeal.LossFinal

open Cert.KernelIdeal Cert.KernelIdeal.Gen Cert.KernelIdeal.Pieces Cert.KernelIdeal.BlockValues Cert.KernelIdeal.Windows
  Cert.KernelIdeal.Accumulate Cert.Nnue

variable (m : (ℓ : Loc nD τ sig) → Buf (Elt Ideal) ℓ) (ρ : Dev nD → PrngReg)

/-- The loss column of the launch contents of the eleven arguments. -/
def result (c : Dev nD) : Buf (Elt Ideal) ((c : Thread nD τ).loc main_v3) :=
  lossArr (m ((c : Thread nD τ).loc main_arg0) : Vec Ideal S2048x81920 .f32)
      (m ((c : Thread nD τ).loc main_arg1) : Vec Ideal S2048x81920 .f32)
      (m ((c : Thread nD τ).loc main_arg2) : Vec Ideal S2048x1 .f32)
      (m ((c : Thread nD τ).loc main_arg3) : Vec Ideal S2048x1 .f32)
      (m ((c : Thread nD τ).loc main_arg4) : Vec Ideal S2048x1 .f32)
      (m ((c : Thread nD τ).loc main_arg5) : Vec Ideal S4x81920 .f32)
      (m ((c : Thread nD τ).loc main_arg6) : Vec Ideal S4 .f32)
      (m ((c : Thread nD τ).loc main_arg7) : Vec Ideal S8x8 .f32)
      (m ((c : Thread nD τ).loc main_arg8) : Vec Ideal S8 .f32)
      (m ((c : Thread nD τ).loc main_arg9) : Vec Ideal S1x8 .f32)
      (m ((c : Thread nD τ).loc main_arg10) : Vec Ideal S1 .f32)

/-- Position `r`'s loss, of the launch contents. -/
def rowResult (c : Dev nD) (r : Fin 2048) : EReal :=
  lossRow (m ((c : Thread nD τ).loc main_arg0) : Vec Ideal S2048x81920 .f32)
      (m ((c : Thread nD τ).loc main_arg1) : Vec Ideal S2048x81920 .f32)
      (m ((c : Thread nD τ).loc main_arg2) : Vec Ideal S2048x1 .f32)
      (m ((c : Thread nD τ).loc main_arg3) : Vec Ideal S2048x1 .f32)
      (m ((c : Thread nD τ).loc main_arg4) : Vec Ideal S2048x1 .f32)
      (m ((c : Thread nD τ).loc main_arg5) : Vec Ideal S4x81920 .f32)
      (m ((c : Thread nD τ).loc main_arg6) : Vec Ideal S4 .f32)
      (m ((c : Thread nD τ).loc main_arg7) : Vec Ideal S8x8 .f32)
      (m ((c : Thread nD τ).loc main_arg8) : Vec Ideal S8 .f32)
      (m ((c : Thread nD τ).loc main_arg9) : Vec Ideal S1x8 .f32)
      (m ((c : Thread nD τ).loc main_arg10) : Vec Ideal S1 .f32) r

theorem result_ix2 (c : Dev nD) (r : Fin 2048) (z : Fin 1) : result m c (ix2 r z) = rowResult m c r := rfl

/-- After the last point of a row block, the output block is the loss block of the accumulators that point has
    just stored. -/
theorem block_is_lossBlock (c : Dev nD) (t : Fin cfg0.N) (h0 : ¬t.val % 20 = 0) (h1 : t.val % 20 = 19) :
    (outsAt0 m c t.val t.isLt).1
      = lossBlock (F := Ideal) (iblk m c 3 t) (outsAt0 m c t.val t.isLt).2.1 (outsAt0 m c t.val t.isLt).2.2
          (iblk m c 4 t) (iblk m c 5 t) (iblk m c 6 t) (iblk m c 7 t) (iblk m c 8 t) (iblk m c 9 t) (iblk m c 10 t)
          (iblk m c 11 t) := by
  have hc0 : ¬cond0_0 (grid0.coords t) := fun h => h0 ((hcond0_0 t).mp h)
  have hc1 : cond0_1 (grid0.coords t) := (hcond0_1 t).mpr h1
  rw [outsAt0_C m c t h0 h1]
  dsimp only
  refine (loss_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (outsAt0 m c (t.val - 1) (Nat.lt_of_le_of_lt (Nat.sub_le _ _) t.isLt)).2.1 (outsAt0 m c (t.val - 1) (Nat.lt_of_le_of_lt (Nat.sub_le _ _) t.isLt)).2.2).trans ?_
  rw [white_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (outsAt0 m c (t.val - 1) (Nat.lt_of_le_of_lt (Nat.sub_le _ _) t.isLt)).2.1 (outsAt0 m c (t.val - 1) (Nat.lt_of_le_of_lt (Nat.sub_le _ _) t.isLt)).2.2,
    black_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (outsAt0 m c (t.val - 1) (Nat.lt_of_le_of_lt (Nat.sub_le _ _) t.isLt)).2.1 (outsAt0 m c (t.val - 1) (Nat.lt_of_le_of_lt (Nat.sub_le _ _) t.isLt)).2.2]

/-- The output block's entry for position `p`, after the last point of row block `t / 20`: the loss of position
    `256 (t / 20) + p`. -/
theorem block_entry (c : Dev nD) (t : Fin cfg0.N) (h0 : ¬t.val % 20 = 0) (h1 : t.val % 20 = 19) (p : Fin 256) (z : Fin 1) :
    (outsAt0 m c t.val t.isLt).1 (ix2 p z)
      = rowResult m c (⟨t.val / 20 * 256 + p.val, by have := lt160 t; have := p.isLt; omega⟩ : Fin 2048) := by
  have hacc := holds m c t.val t.isLt
  have hW : ∀ j : Fin 4, (outsAt0 m c t.val t.isLt).2.1 (ix2 p j)
      = ∑ K : Fin 81920, whiteRow m c (t.val / 20) (rowblock_lt t.val t.isLt) p K * weightRow m c j K := fun j => by
    rw [(hacc p j).1, h1]
    exact pdot_full _ _
  have hB : ∀ j : Fin 4, (outsAt0 m c t.val t.isLt).2.2 (ix2 p j)
      = ∑ K : Fin 81920, blackRow m c (t.val / 20) (rowblock_lt t.val t.isLt) p K * weightRow m c j K := fun j => by
    rw [(hacc p j).2, h1]
    exact pdot_full _ _
  rw [block_is_lossBlock m c t h0 h1, lossBlock_apply]
  simp only [hW, hB, ftb_blk m c t, turn_blk m c t, score_blk m c t, result_blk m c t, l1a_blk m c t, l1b_blk m c t,
    bias1_blk m c t, l2_blk m c t, bias2_blk m c t]
  rfl

/-- The output window's block index: the row block, and column block 0. -/
theorem mem_blk (t : Fin cfg0.N) (i : S2048x1.Idx) :
    i ∈ ((cfg0.win 12).blk t).view.set
      ↔ ∀ a : Fin 2, win0_12.index t a * S256x1.size a ≤ (i a).val ∧ (i a).val < win0_12.index t a * S256x1.size a + S256x1.size a := by
  show i ∈ ((View.whole main_v3).slice (win0_12.rect t)).set ↔ _
  rw [View.set_slice_whole, Rect.mem_set_unit]
  exact Iff.rfl

/-- What a write-back writes is the loss column's block. -/
theorem flushed_eq (c : Dev nD) (t : Fin cfg0.N) (hf : (cfg0.win 12).flush t = true) :
    (dats m 0 c).flushed 12 t = ((cfg0.win 12).blk t).view.read (Elt Ideal) (result m c) := by
  have hN := lt160 t
  have h1 : t.val % 20 = 19 := (flush0_12 t).mp hf
  have h0 : ¬t.val % 20 = 0 := by omega
  have hi := index_loss t
  rw [Value.flushed12 m c t]
  funext y
  rw [View.read_apply]
  have hy0 : (y 0).val < 256 := (y 0).isLt
  have hy1 : (y 1).val < 1 := (y 1).isLt
  have ey : y = ix2 (⟨(y 0).val, hy0⟩ : Fin 256) (⟨(y 1).val, hy1⟩ : Fin 1) :=
    funext fun a => Fin.ext (by match a with | ⟨0, _⟩ => rfl | ⟨1, _⟩ => rfl)
  have ee : ((cfg0.win 12).blk t).view.emb y
      = ix2 (⟨t.val / 20 * 256 + (y 0).val, by omega⟩ : Fin 2048) (⟨(y 1).val, hy1⟩ : Fin 1) :=
    funext fun a => Fin.ext (by
      match a with
      | ⟨0, _⟩ => show win0_12.index t 0 * 256 + 1 * (y 0).val = t.val / 20 * 256 + (y 0).val; rw [hi.1]; omega
      | ⟨1, _⟩ => show win0_12.index t 1 * 1 + 1 * (y 1).val = (y 1).val; rw [hi.2]; omega)
  rw [ee, result_ix2]
  show (outsAt0 m c t.val t.isLt).1 y = _
  exact (congrArg (outsAt0 m c t.val t.isLt).1 ey).trans (block_entry m c t h0 h1 _ _)

/-- Every row of the result lies in the block its row block's last point writes back. -/
theorem cover (i : S2048x1.Idx) :
    ∃ t : Fin cfg0.N, (cfg0.win 12).flush t = true ∧ i ∈ ((cfg0.win 12).blk t).view.set := by
  have hi0 : (i 0).val < 2048 := (i 0).isLt
  have hi1 : (i 1).val < 1 := (i 1).isLt
  have hlt : (i 0).val / 256 * 20 + 19 < cfg0.N := by rw [show cfg0.N = 160 from N_0]; omega
  have e0 : win0_12.index ⟨(i 0).val / 256 * 20 + 19, hlt⟩ 0 = ((i 0).val / 256 * 20 + 19) / 20 :=
    (index_loss ⟨(i 0).val / 256 * 20 + 19, hlt⟩).1
  have e1 : win0_12.index ⟨(i 0).val / 256 * 20 + 19, hlt⟩ 1 = 0 := (index_loss ⟨(i 0).val / 256 * 20 + 19, hlt⟩).2
  refine ⟨⟨(i 0).val / 256 * 20 + 19, hlt⟩,
    (flush0_12 _).mpr (by show ((i 0).val / 256 * 20 + 19) % 20 = 19; omega), ?_⟩
  rw [mem_blk]
  intro a
  match a with
  | ⟨0, _⟩ =>
    show win0_12.index ⟨(i 0).val / 256 * 20 + 19, hlt⟩ 0 * 256 ≤ (i 0).val
      ∧ (i 0).val < win0_12.index ⟨(i 0).val / 256 * 20 + 19, hlt⟩ 0 * 256 + 256
    rw [e0]; omega
  | ⟨1, _⟩ =>
    show win0_12.index ⟨(i 0).val / 256 * 20 + 19, hlt⟩ 1 * 1 ≤ (i 1).val
      ∧ (i 1).val < win0_12.index ⟨(i 0).val / 256 * 20 + 19, hlt⟩ 1 * 1 + 1
    rw [e1]; omega

/-- The result array after the run is the loss column. -/
theorem final (c : Dev nD) : (dats m 0 c).arrAt 12 cfg0.N = result m c :=
  (dats m 0 c).arrAt_eq_of_cover 12 (result m c) (flushed_eq m c) (fun i => cover i)

/-- The run: the result array at the loss column of the launch contents, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.LossFinal

end
-- ==== Proof.RefLoss.lean ====
/-
  The reference program's result, read at the ideal instance, is the loss column of the specification.

  Position `r`'s two accumulator rows are the dot products of its white and black feature rows with the four
  weight rows, plus the bias. The program joins them in both orders along the column axis, mixes the two joined
  rows by the side to move, clips to `[0, 1]`, applies the first dense layer as ONE eight-term sum per output,
  clips again, applies the second dense layer, and spells the logistic function out as `1 / (1 + e^(−x))`.
  The specification sums the first dense layer's input in two halves of four and names the logistic function;
  `sum8_split` and `logistic_spelled` join the two.
-/
import proofs.«108676_j31525059952895_1_alg».proof.Proof.Gen.ReferenceIdeal.Read
import proofs.«108676_j31525059952895_1_alg».proof.Proof.LossSpec
import Idealize.ShloMosaic.Lib.ValueIdx
import Idealize.ShloMosaic.Lib.Pipeline.Value
import Idealize.ShloMosaic.PureOps.Ideal.Laws

noncomputable section

open scoped BigOperators

namespace Cert.ReferenceIdeal.RefLoss

open Cert.ReferenceIdeal Cert.ReferenceIdeal.Read Idealize.ShloMosaic Idealize.ShloMosaic.ValueIdx Cert.Nnue

variable (x0 x1 : (⟨S2048x81920, .f32⟩ : BufTy).Contents (Elt Ideal))
  (x2 x3 x4 : (⟨S2048x1, .f32⟩ : BufTy).Contents (Elt Ideal))
  (x5 : (⟨S4x81920, .f32⟩ : BufTy).Contents (Elt Ideal))
  (x6 : (⟨S4, .f32⟩ : BufTy).Contents (Elt Ideal))
  (x7 : (⟨S8x8, .f32⟩ : BufTy).Contents (Elt Ideal))
  (x8 : (⟨S8, .f32⟩ : BufTy).Contents (Elt Ideal))
  (x9 : (⟨S1x8, .f32⟩ : BufTy).Contents (Elt Ideal))
  (x10 : (⟨S1, .f32⟩ : BufTy).Contents (Elt Ideal))

/-! ## The two accumulator rows -/

/-- Position `r`'s white accumulator entry `j`: the dot product of its white feature row with weight row `j`,
    plus the bias. -/
theorem acc_white (r : Fin 2048) (j : Fin 4) :
    val_main_v4 (F := Ideal) x0 x5 x6 (ix2 r j)
      = (∑ K : Fin 81920, x0 (ix2 r K) * x5 (ix2 j K)) + x6 (ix1 j) := by
  rewrite [val_main_v4_apply, val_main_v1_apply, val_main_v3_apply, val_main_v2_apply, Ideal.addf_def]
  refine congrArg₂ (· + ·) (Finset.sum_congr rfl fun K _ => ?_) ?_
  · rewrite [val_main_v0_apply]
    exact congrArg₂ (· * ·) (congrArg x0 (funext fun a => Fin.ext (by match a with | ⟨0, _⟩ => rfl | ⟨1, _⟩ => rfl)))
      (congrArg x5 (funext fun a => Fin.ext (by match a with | ⟨0, _⟩ => rfl | ⟨1, _⟩ => rfl)))
  · exact congrArg x6 (funext fun a => Fin.ext (by match a with | ⟨0, _⟩ => rfl))

/-- Position `r`'s black accumulator entry `j`: the same with the black feature row. -/
theorem acc_black (r : Fin 2048) (j : Fin 4) :
    val_main_v9 (F := Ideal) x1 x5 x6 (ix2 r j)
      = (∑ K : Fin 81920, x1 (ix2 r K) * x5 (ix2 j K)) + x6 (ix1 j) := by
  rewrite [val_main_v9_apply, val_main_v6_apply, val_main_v8_apply, val_main_v7_apply, Ideal.addf_def]
  refine congrArg₂ (· + ·) (Finset.sum_congr rfl fun K _ => ?_) ?_
  · rewrite [val_main_v5_apply]
    exact congrArg₂ (· * ·) (congrArg x1 (funext fun a => Fin.ext (by match a with | ⟨0, _⟩ => rfl | ⟨1, _⟩ => rfl)))
      (congrArg x5 (funext fun a => Fin.ext (by match a with | ⟨0, _⟩ => rfl | ⟨1, _⟩ => rfl)))
  · exact congrArg x6 (funext fun a => Fin.ext (by match a with | ⟨0, _⟩ => rfl))

/-! ## The two joined rows: columns `0 … 3` are the first piece, columns `4 … 7` the second -/

/-- White then black, at a column of the first four: the white row. -/
theorem joined_wb_first (r : Fin 2048) (j : Fin 4) :
    val_main_v10 (F := Ideal) x0 x1 x5 x6 (ix2 r (⟨j.val, by have := j.isLt; omega⟩ : Fin 8))
      = val_main_v4 (F := Ideal) x0 x5 x6 (ix2 r j) := by
  unfold val_main_v10
  refine concatenate_pair_apply_left (t := S2048x8) (s₁ := S2048x4) (s₂ := S2048x4) (1 : Fin 2)
    (val_main_v4 (F := Ideal) x0 x5 x6) (val_main_v9 (F := Ideal) x1 x5 x6) _
    (ix2 r (⟨j.val, by have := j.isLt; omega⟩ : Fin 8)) rfl (ix2 r j) ?_
  intro b
  match b with
  | ⟨0, _⟩ => rfl
  | ⟨1, _⟩ => rfl

/-- White then black, at a column of the last four: the black row. -/
theorem joined_wb_last (r : Fin 2048) (j : Fin 4) :
    val_main_v10 (F := Ideal) x0 x1 x5 x6 (ix2 r (⟨4 + j.val, by have := j.isLt; omega⟩ : Fin 8))
      = val_main_v9 (F := Ideal) x1 x5 x6 (ix2 r j) := by
  unfold val_main_v10
  refine concatenate_pair_apply_right (t := S2048x8) (s₁ := S2048x4) (s₂ := S2048x4) (1 : Fin 2)
    (val_main_v4 (F := Ideal) x0 x5 x6) (val_main_v9 (F := Ideal) x1 x5 x6) _
    (ix2 r (⟨4 + j.val, by have := j.isLt; omega⟩ : Fin 8)) rfl rfl (ix2 r j) ?_ ?_
  · intro b hb
    match b, hb with
    | ⟨0, _⟩, _ => rfl
    | ⟨1, _⟩, hb => exact absurd rfl hb
  · show j.val + 4 = 4 + j.val
    omega

/-- Black then white, at a column of the first four: the black row. -/
theorem joined_bw_first (r : Fin 2048) (j : Fin 4) :
    val_main_v15 (F := Ideal) x0 x1 x5 x6 (ix2 r (⟨j.val, by have := j.isLt; omega⟩ : Fin 8))
      = val_main_v9 (F := Ideal) x1 x5 x6 (ix2 r j) := by
  unfold val_main_v15
  refine concatenate_pair_apply_left (t := S2048x8) (s₁ := S2048x4) (s₂ := S2048x4) (1 : Fin 2)
    (val_main_v9 (F := Ideal) x1 x5 x6) (val_main_v4 (F := Ideal) x0 x5 x6) _
    (ix2 r (⟨j.val, by have := j.isLt; omega⟩ : Fin 8)) rfl (ix2 r j) ?_
  intro b
  match b with
  | ⟨0, _⟩ => rfl
  | ⟨1, _⟩ => rfl

/-- Black then white, at a column of the last four: the white row. -/
theorem joined_bw_last (r : Fin 2048) (j : Fin 4) :
    val_main_v15 (F := Ideal) x0 x1 x5 x6 (ix2 r (⟨4 + j.val, by have := j.isLt; omega⟩ : Fin 8))
      = val_main_v4 (F := Ideal) x0 x5 x6 (ix2 r j) := by
  unfold val_main_v15
  refine concatenate_pair_apply_right (t := S2048x8) (s₁ := S2048x4) (s₂ := S2048x4) (1 : Fin 2)
    (val_main_v9 (F := Ideal) x1 x5 x6) (val_main_v4 (F := Ideal) x0 x5 x6) _
    (ix2 r (⟨4 + j.val, by have := j.isLt; omega⟩ : Fin 8)) rfl rfl (ix2 r j) ?_ ?_
  · intro b hb
    match b, hb with
    | ⟨0, _⟩, _ => rfl
    | ⟨1, _⟩, hb => exact absurd rfl hb
  · show j.val + 4 = 4 + j.val
    omega

/-! ## Mixing by the side to move, and clipping -/

/-- The mixed and clipped entry `(r, k)`: the two joined rows at `(r, k)`, mixed by position `r`'s side to move,
    clipped to `[0, 1]`. -/
theorem clipped_mix (r : Fin 2048) (k : Fin 8) :
    val_main_v19 (F := Ideal) x0 x1 x2 x5 x6 (ix2 r k)
      = clip01 (mix (x2 (ix2 r (0 : Fin 1))) (val_main_v10 (F := Ideal) x0 x1 x5 x6 (ix2 r k))
          (val_main_v15 (F := Ideal) x0 x1 x5 x6 (ix2 r k))) := by
  rewrite [val_main_v19_apply, val_main_call0_v4_apply, val_main_call0_v3_apply, val_main_cst_1_apply,
    val_main_call0_v2_apply, val_main_call0_v1_apply, val_main_call0_v0_apply, val_main_cst_0_apply,
    val_main_v18_apply, val_main_v12_apply, val_main_v17_apply, val_main_v11_apply, val_main_v16_apply,
    val_main_v14_apply, val_main_v13_apply, val_main_cst_apply]
  have e11 : idx_main_v11 (ix2 r k) = ix2 r (0 : Fin 1) := (funext fun a => Fin.ext (by match a with | ⟨0, _⟩ => rfl | ⟨1, _⟩ => rfl))
  have e16 : idx_main_v16 (ix2 r k) = ix2 r (0 : Fin 1) := (funext fun a => Fin.ext (by match a with | ⟨0, _⟩ => rfl | ⟨1, _⟩ => rfl))
  rewrite [e11, e16]
  rfl

/-- A clipped entry of the first four columns: white mixed with black. -/
theorem clipped_first (r : Fin 2048) (j : Fin 4) :
    val_main_v19 (F := Ideal) x0 x1 x2 x5 x6 (ix2 r (⟨j.val, by have := j.isLt; omega⟩ : Fin 8))
      = clip01 (mix (x2 (ix2 r (0 : Fin 1))) ((∑ K : Fin 81920, x0 (ix2 r K) * x5 (ix2 j K)) + x6 (ix1 j)) ((∑ K : Fin 81920, x1 (ix2 r K) * x5 (ix2 j K)) + x6 (ix1 j))) := by
  rewrite [clipped_mix, joined_wb_first, joined_bw_first, acc_white, acc_black]
  exact rfl

/-- A clipped entry of the last four columns: black mixed with white. -/
theorem clipped_last (r : Fin 2048) (j : Fin 4) :
    val_main_v19 (F := Ideal) x0 x1 x2 x5 x6 (ix2 r (⟨4 + j.val, by have := j.isLt; omega⟩ : Fin 8))
      = clip01 (mix (x2 (ix2 r (0 : Fin 1))) ((∑ K : Fin 81920, x1 (ix2 r K) * x5 (ix2 j K)) + x6 (ix1 j)) ((∑ K : Fin 81920, x0 (ix2 r K) * x5 (ix2 j K)) + x6 (ix1 j))) := by
  rewrite [clipped_mix, joined_wb_last, joined_bw_last, acc_white, acc_black]
  exact rfl

/-! ## The first dense layer -/

/-- The first dense layer's output `(r, n)` before clipping: ONE eight-term sum over the clipped row, plus the bias. -/
theorem dense1_sum (r : Fin 2048) (n : Fin 8) :
    val_main_v24 (F := Ideal) x0 x1 x2 x5 x6 x7 x8 (ix2 r n)
      = (∑ k : Fin 8, val_main_v19 (F := Ideal) x0 x1 x2 x5 x6 (ix2 r k) * x7 (ix2 n k)) + x8 (ix1 n) := by
  rewrite [val_main_v24_apply, val_main_v21_apply, val_main_v23_apply, val_main_v22_apply, Ideal.addf_def]
  refine congrArg₂ (· + ·) (Finset.sum_congr rfl fun k _ => ?_) ?_
  · rewrite [val_main_v20_apply]
    exact congrArg₂ (· * ·) (congrArg (val_main_v19 (F := Ideal) x0 x1 x2 x5 x6) (funext fun a => Fin.ext (by match a with | ⟨0, _⟩ => rfl | ⟨1, _⟩ => rfl)))
      (congrArg x7 (funext fun a => Fin.ext (by match a with | ⟨0, _⟩ => rfl | ⟨1, _⟩ => rfl)))
  · exact congrArg x8 (funext fun a => Fin.ext (by match a with | ⟨0, _⟩ => rfl))

/-- The same output with the eight-term sum split into the first four columns and the last four. -/
theorem dense1_halves (r : Fin 2048) (n : Fin 8) :
    val_main_v24 (F := Ideal) x0 x1 x2 x5 x6 x7 x8 (ix2 r n)
      = dense1 (fun j => clip01 (mix (x2 (ix2 r (0 : Fin 1))) ((∑ K : Fin 81920, x0 (ix2 r K) * x5 (ix2 j K)) + x6 (ix1 j)) ((∑ K : Fin 81920, x1 (ix2 r K) * x5 (ix2 j K)) + x6 (ix1 j))))
          (fun j => clip01 (mix (x2 (ix2 r (0 : Fin 1))) ((∑ K : Fin 81920, x1 (ix2 r K) * x5 (ix2 j K)) + x6 (ix1 j)) ((∑ K : Fin 81920, x0 (ix2 r K) * x5 (ix2 j K)) + x6 (ix1 j))))
          (fun n j => x7 (ix2 n (⟨j.val, by have := j.isLt; omega⟩ : Fin 8)))
          (fun n j => x7 (ix2 n (⟨4 + j.val, by have := j.isLt; omega⟩ : Fin 8)))
          (fun n => x8 (ix1 n)) n := by
  rewrite [dense1_sum, sum8_split]
  unfold dense1
  refine congrArg₂ (· + ·) (congrArg₂ (· + ·) (Finset.sum_congr rfl fun j _ => ?_)
    (Finset.sum_congr rfl fun j _ => ?_)) rfl
  · exact congrArg₂ (· * ·) (clipped_first x0 x1 x2 x5 x6 r j) rfl
  · exact congrArg₂ (· * ·) (clipped_last x0 x1 x2 x5 x6 r j) rfl

/-- The first dense layer's output, clipped. -/
theorem clipped_dense1 (r : Fin 2048) (n : Fin 8) :
    val_main_v25 (F := Ideal) x0 x1 x2 x5 x6 x7 x8 (ix2 r n)
      = clip01 (val_main_v24 (F := Ideal) x0 x1 x2 x5 x6 x7 x8 (ix2 r n)) := by
  rewrite [val_main_v25_apply, val_main_call1_v4_apply, val_main_call1_v3_apply, val_main_cst_3_apply,
    val_main_call1_v2_apply, val_main_call1_v1_apply, val_main_call1_v0_apply, val_main_cst_2_apply]
  rfl

/-! ## The second dense layer -/

/-- The model's output for position `r`: the eight clipped numbers against the second layer's weights, plus its bias. -/
theorem dense2_sum (r : Fin 2048) :
    val_main_v30 (F := Ideal) x0 x1 x2 x5 x6 x7 x8 x9 x10 (ix2 r (0 : Fin 1))
      = (∑ n : Fin 8, val_main_v25 (F := Ideal) x0 x1 x2 x5 x6 x7 x8 (ix2 r n) * x9 (ix2 (0 : Fin 1) n))
        + x10 (ix1 (0 : Fin 1)) := by
  rewrite [val_main_v30_apply, val_main_v27_apply, val_main_v29_apply, val_main_v28_apply, Ideal.addf_def]
  refine congrArg₂ (· + ·) (Finset.sum_congr rfl fun n _ => ?_) ?_
  · rewrite [val_main_v26_apply]
    exact congrArg₂ (· * ·) (congrArg (val_main_v25 (F := Ideal) x0 x1 x2 x5 x6 x7 x8) (funext fun a => Fin.ext (by match a with | ⟨0, _⟩ => rfl | ⟨1, _⟩ => rfl)))
      (congrArg x9 (funext fun a => Fin.ext (by match a with | ⟨0, _⟩ => rfl | ⟨1, _⟩ => rfl)))
  · exact congrArg x10 (funext fun a => Fin.ext (by match a with | ⟨0, _⟩ => rfl))

/-! ## The loss -/

/-- The win probability as the program spells it: `1 / (1 + e^(−(y / 400)))`. -/
theorem wdl_spelled (y : Ideal .f32) :
    FloatOps.hostDivf (F := Ideal) (FloatOps.ofBits .f32 0x3F800000#32)
      (FloatOps.addf (FloatOps.ofBits .f32 0x3F800000#32)
        (FloatOps.hostUnary .exp (FloatOps.hostNegf (FloatOps.hostDivf y (FloatOps.ofBits .f32 0x43C80000#32)))))
      = wdl y :=
  logistic_spelled (Ideal.div y w400)

/-- The program's last stretch at an index: the loss of the model's output against the score and the result there. -/
theorem loss_tail (i : S2048x1.Idx) :
    val_main_v55 (F := Ideal) x0 x1 x2 x3 x4 x5 x6 x7 x8 x9 x10 i
      = lossOf (val_main_v30 (F := Ideal) x0 x1 x2 x5 x6 x7 x8 x9 x10 i) (x3 i) (x4 i) := by
  rewrite [val_main_v55_apply, val_main_v52_apply, val_main_v54_apply, val_main_v51_apply, val_main_v53_apply,
    val_main_cst_10_apply, val_main_cst_11_apply, val_main_v48_apply, val_main_v50_apply, val_main_v47_apply,
    val_main_v49_apply, val_main_v38_apply, val_main_v46_apply, val_main_v37_apply, val_main_cst_6_apply,
    val_main_v45_apply, val_main_cst_9_apply, val_main_v36_apply, val_main_v44_apply, val_main_v35_apply,
    val_main_cst_5_apply, val_main_v43_apply, val_main_cst_8_apply, val_main_v34_apply, val_main_v42_apply,
    val_main_v33_apply, val_main_v41_apply, val_main_v32_apply, val_main_v40_apply, val_main_v31_apply,
    val_main_cst_4_apply, val_main_v39_apply, val_main_cst_7_apply]
  rewrite [wdl_spelled, wdl_spelled]
  rfl

/-- Position `r`'s entry of the program's result is position `r`'s loss. -/
theorem row_loss (r : Fin 2048) :
    val_main_v55 (F := Ideal) x0 x1 x2 x3 x4 x5 x6 x7 x8 x9 x10 (ix2 r (0 : Fin 1))
      = lossRow x0 x1 x2 x3 x4 x5 x6 x7 x8 x9 x10 r := by
  rewrite [loss_tail, dense2_sum]
  unfold lossRow rowLoss
  refine congrArg (fun mr => lossOf mr (x3 (ix2 r (0 : Fin 1))) (x4 (ix2 r (0 : Fin 1)))) ?_
  refine congrArg₂ (· + ·) (Finset.sum_congr rfl fun n _ => ?_) rfl
  rewrite [clipped_dense1, dense1_halves]
  exact rfl

/-- The program's result is the loss column: entry `(r, 0)` is position `r`'s loss. -/
theorem val_eq_loss
    (x0 x1 : (⟨Cert.ReferenceIdeal.S2048x81920, .f32⟩ : BufTy).Contents (Elt Ideal))
    (x2 x3 x4 : (⟨Cert.ReferenceIdeal.S2048x1, .f32⟩ : BufTy).Contents (Elt Ideal))
    (x5 : (⟨Cert.ReferenceIdeal.S4x81920, .f32⟩ : BufTy).Contents (Elt Ideal))
    (x6 : (⟨Cert.ReferenceIdeal.S4, .f32⟩ : BufTy).Contents (Elt Ideal))
    (x7 : (⟨Cert.ReferenceIdeal.S8x8, .f32⟩ : BufTy).Contents (Elt Ideal))
    (x8 : (⟨Cert.ReferenceIdeal.S8, .f32⟩ : BufTy).Contents (Elt Ideal))
    (x9 : (⟨Cert.ReferenceIdeal.S1x8, .f32⟩ : BufTy).Contents (Elt Ideal))
    (x10 : (⟨Cert.ReferenceIdeal.S1, .f32⟩ : BufTy).Contents (Elt Ideal)) :
    Cert.ReferenceIdeal.Read.val_main_v55 (F := Ideal) x0 x1 x2 x3 x4 x5 x6 x7 x8 x9 x10
      = Cert.Nnue.lossArr x0 x1 x2 x3 x4 x5 x6 x7 x8 x9 x10 := by
  funext i
  obtain ⟨r, z, rfl⟩ : ∃ (r : Fin 2048) (z : Fin 1), i = ix2 r z := ⟨i 0, i 1, eq_ix2 i⟩
  have hz : z = 0 := Fin.eq_zero z
  subst hz
  rewrite [lossArr_ix2]
  exact row_loss x0 x1 x2 x3 x4 x5 x6 x7 x8 x9 x10 r

end Cert.ReferenceIdeal.RefLoss

end
-- ==== Proof.lean ====
/-
  A feature-transformer network's loss, blocked over a grid, against the same loss written whole.

  For each of 2048 positions the network multiplies the position's white and black feature rows (81920
  features) by four weight rows and adds a bias, mixes the two results by the side to move in both orders,
  clips to `[0, 1]`, applies an 8-to-8 dense layer with bias, clips, applies an 8-to-1 dense layer with bias, and
  scores the outcome `mr` by `½ (σ(mr/400) − σ(score/400))² + ½ (σ(mr/400) − result)²`, σ the logistic function.

  The kernel walks an 8 by 20 grid: 8 blocks of 256 positions, and for each, 20 blocks of 4096 features whose
  products it adds into two accumulators it zeroes at the first block; after the twentieth it computes the 256
  losses from the accumulators and writes them out. The reference computes each dot product over all 81920
  features at once and joins the two results side by side before one 8-wide dense layer, where the kernel
  keeps the two halves apart and adds two 4-wide products.

  Over the extended reals the two agree with no condition on the inputs: a change of float format is the
  identity, a sum over 81920 features is the sum of its twenty blocks' sums started from zero
  (`Cert.Nnue.pdot_block`, `pdot_full`), a sum over eight terms is the sum of its first four plus its last four
  (`Cert.Nnue.sum8_split`), and the logistic operation is the quotient `1 / (1 + e^(−x))` the reference spells
  out (`Cert.Nnue.logistic_spelled`). Everything else is the same operation on the same entries, literal for
  literal. So both result arrays end at one loss column, `Cert.Nnue.lossArr` of the eleven arguments.
-/
import proofs.«108676_j31525059952895_1_alg».proof.Defs
import proofs.«108676_j31525059952895_1_alg».proof.Proof.Gen.Kernel
import proofs.«108676_j31525059952895_1_alg».proof.Proof.Gen.Kernel.Skeleton
import proofs.«108676_j31525059952895_1_alg».proof.Proof.Gen.Kernel.Launch
import proofs.«108676_j31525059952895_1_alg».proof.Proof.Gen.Kernel.Points
import proofs.«108676_j31525059952895_1_alg».proof.Proof.Gen.Kernel.Frame
import proofs.«108676_j31525059952895_1_alg».proof.Proof.Gen.KernelIdeal
import proofs.«108676_j31525059952895_1_alg».proof.Proof.Gen.KernelIdeal.Skeleton
import proofs.«108676_j31525059952895_1_alg».proof.Proof.Gen.KernelIdeal.Launch
import proofs.«108676_j31525059952895_1_alg».proof.Proof.Gen.KernelIdeal.Points
import proofs.«108676_j31525059952895_1_alg».proof.Proof.Gen.KernelIdeal.Frame
import proofs.«108676_j31525059952895_1_alg».proof.Proof.Gen.ReferenceIdeal
import proofs.«108676_j31525059952895_1_alg».proof.Proof.Gen.Pre_finite_inputs
import proofs.«108676_j31525059952895_1_alg».proof.Proof.Gen.KernelIdeal.Value
import proofs.«108676_j31525059952895_1_alg».proof.Proof.Gen.ReferenceIdeal.Run
import proofs.«108676_j31525059952895_1_alg».proof.Proof.Gen.ReferenceIdeal.Read
import proofs.«108676_j31525059952895_1_alg».proof.Proof.LossFinal
import proofs.«108676_j31525059952895_1_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its ideal reading. -/
theorem preserves : Cert.preserves_Kernel_KernelIdeal := trivial

/-- From memories that agree on the eleven arguments, the kernel's result array and the reference's both end at
    the loss column of those arguments. -/
theorem algebraic : Cert.algebraic_KernelIdeal_ReferenceIdeal := by
  intro m ρ m' ρ' _ hagree
  refine ⟨fun c => Cert.KernelIdeal.LossFinal.result m c, Cert.KernelIdeal.LossFinal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v55_eq, Cert.ReferenceIdeal.RefLoss.val_eq_loss, a0, a1, a2, a3, a4, a5, a6, a7,
    a8, a9, a10]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
